-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096 32) (main_arg2 : IVec S4096x8192 1) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S8192x1 : Shape := ⟨2, ![8192, 1]⟩
abbrev S128x8192 : Shape := ⟨2, ![128, 8192]⟩
abbrev S128x1 : Shape := ⟨2, ![128, 1]⟩

abbrev nBuf : Space → Nat
  | .hbm => 115
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S4096, .i32⟩
  | .hbm, ⟨2, _⟩ => ⟨S4096x8192, .i1⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S4096, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S_, .i32⟩
  | .hbm, ⟨23, _⟩ => ⟨S4096x1, .i32⟩
  | .hbm, ⟨24, _⟩ => ⟨S4096x1, .i32⟩
  | .hbm, ⟨25, _⟩ => ⟨S4096x1, .i32⟩
  | .hbm, ⟨26, _⟩ => ⟨S4096x1x1, .i32⟩
  | .hbm, ⟨27, _⟩ => ⟨S1, .i32⟩
  | .hbm, ⟨28, _⟩ => ⟨S_, .i32⟩
  | .hbm, ⟨29, _⟩ => ⟨S4096x1x1, .i32⟩
  | .hbm, ⟨30, _⟩ => ⟨S4096x1x1, .i1⟩
  | .hbm, ⟨31, _⟩ => ⟨S1x1x1, .i32⟩
  | .hbm, ⟨32, _⟩ => ⟨S4096x1x1, .i32⟩
  | .hbm, ⟨33, _⟩ => ⟨S4096x1x1, .i1⟩
  | .hbm, ⟨34, _⟩ => ⟨S4096x1x1, .i1⟩
  | .hbm, ⟨35, _⟩ => ⟨S_, .i1⟩
  | .hbm, ⟨36, _⟩ => ⟨S4096x1, .i1⟩
  | .hbm, ⟨37, _⟩ => ⟨S4096x1, .i1⟩
  | .hbm, ⟨38, _⟩ => ⟨S_, .i1⟩
  | .hbm, ⟨39, _⟩ => ⟨S4096x1, .i1⟩
  | .hbm, ⟨40, _⟩ => ⟨S4096x1, .i1⟩
  | .hbm, ⟨41, _⟩ => ⟨S4096, .i1⟩
  | .hbm, ⟨42, _⟩ => ⟨S4096, .i1⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S_, .i32⟩
  | .hbm, ⟨47, _⟩ => ⟨S4096x1, .i32⟩
  | .hbm, ⟨48, _⟩ => ⟨S4096x1, .i32⟩
  | .hbm, ⟨49, _⟩ => ⟨S4096x1, .i32⟩
  | .hbm, ⟨50, _⟩ => ⟨S4096x1x1, .i32⟩
  | .hbm, ⟨51, _⟩ => ⟨S1, .i32⟩
  | .hbm, ⟨52, _⟩ => ⟨S_, .i32⟩
  | .hbm, ⟨53, _⟩ => ⟨S4096x1x1, .i32⟩
  | .hbm, ⟨54, _⟩ => ⟨S4096x1x1, .i1⟩
  | .hbm, ⟨55, _⟩ => ⟨S1x1x1, .i32⟩
  | .hbm, ⟨56, _⟩ => ⟨S4096x1x1, .i32⟩
  | .hbm, ⟨57, _⟩ => ⟨S4096x1x1, .i1⟩
  | .hbm, ⟨58, _⟩ => ⟨S4096x1x1, .i1⟩
  | .hbm, ⟨59, _⟩ => ⟨S_, .i1⟩
  | .hbm, ⟨60, _⟩ => ⟨S4096x1, .i1⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S8192x1, .f32⟩
  | .hbm, ⟨67, _⟩ => ⟨S4096x8192, .i32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096, .f32⟩
  | .hbm, ⟨84, _⟩ => ⟨S_, .f32⟩
  | .hbm, ⟨85, _⟩ => ⟨S4096, .f32⟩
  | .hbm, ⟨86, _⟩ => ⟨S4096, .i1⟩
  | .hbm, ⟨87, _⟩ => ⟨S4096, .i1⟩
  | .hbm, ⟨88, _⟩ => ⟨S_, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S4096, .f32⟩
  | .hbm, ⟨96, _⟩ => ⟨S_, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S4096, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S128x1, .f32⟩
  | .local _ .vmem, ⟨5, _⟩ => ⟨S128x1, .f32⟩
  | .local _ .vmem, ⟨6, _⟩ => ⟨S8192x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_c_4 : Ref sig .tc := ⟨.hbm, 38, rfl⟩
abbrev main_call1_v14 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v10 : Ref sig .tc := ⟨.hbm, 64, rfl⟩
abbrev main_cst : Ref sig .tc := ⟨.hbm, 65, rfl⟩
abbrev main_v11 : Ref sig .tc := ⟨.hbm, 66, rfl⟩
abbrev main_v12 : Ref sig .tc := ⟨.hbm, 67, rfl⟩
abbrev main_v13_0 : Ref sig .tc := ⟨.hbm, 68, rfl⟩
abbrev main_v13_1 : Ref sig .tc := ⟨.hbm, 69, rfl⟩
abbrev main_v13_2 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_cst_3 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_cst_4 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_5 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_6 : Ref sig .tc := ⟨.hbm, 88, rfl⟩
abbrev main_call3_v0 : Ref sig .tc := ⟨.hbm, 89, rfl⟩
abbrev main_call3_v1 : Ref sig .tc := ⟨.hbm, 90, rfl⟩
abbrev main_v28 : Ref sig .tc := ⟨.hbm, 91, rfl⟩
abbrev main_cst_7 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_8 : Ref sig .tc := ⟨.hbm, 96, rfl⟩
abbrev main_call4_v0 : Ref sig .tc := ⟨.hbm, 97, rfl⟩
abbrev main_call4_v1 : Ref sig .tc := ⟨.hbm, 98, rfl⟩
abbrev main_v32 : Ref sig .tc := ⟨.hbm, 99, rfl⟩
abbrev main_v33 : Ref sig .tc := ⟨.hbm, 100, rfl⟩
abbrev main_c_9 : Ref sig .tc := ⟨.hbm, 101, rfl⟩
abbrev main_v34 : Ref sig .tc := ⟨.hbm, 102, rfl⟩
abbrev main_c_10 : Ref sig .tc := ⟨.hbm, 103, rfl⟩
abbrev main_v35 : Ref sig .tc := ⟨.hbm, 104, rfl⟩
abbrev main_v36 : Ref sig .tc := ⟨.hbm, 105, rfl⟩
abbrev main_cst_11 : Ref sig .tc := ⟨.hbm, 106, rfl⟩
abbrev main_v37 : Ref sig .tc := ⟨.hbm, 107, rfl⟩
abbrev main_v38 : Ref sig .tc := ⟨.hbm, 108, rfl⟩
abbrev main_cst_12 : Ref sig .tc := ⟨.hbm, 109, rfl⟩
abbrev main_v39 : Ref sig .tc := ⟨.hbm, 110, rfl⟩
abbrev main_v40 : Ref sig .tc := ⟨.hbm, 111, rfl⟩
abbrev main_cst_13 : Ref sig .tc := ⟨.hbm, 112, rfl⟩
abbrev main_v41 : Ref sig .tc := ⟨.hbm, 113, rfl⟩
abbrev main_v42 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  bcast_S_S8192x1 : S_.BroadcastsInDim S8192x1 (![] : Fin 0 → Fin S8192x1.rank)
  natLt_1_32 : 1 < 32
  inb_S128x8192_S128x8192_0_0 : ∀ a, (![0, 0] : Fin 2 → Nat) a + S128x8192.size a ≤ S128x8192.size a
  h_S128x8192 : 0 < S128x8192.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S128x1_S128x8192 : S128x1.Broadcasts S128x8192
  reducesTo_S4096_S_d0 : S4096.ReducesTo [0] S_
  gather_S4096x8192_S4096x1x1_S4096x1_n_1_0_0_1_2_11_wf : GatherDims.WF S4096x8192 S4096x1x1 S4096x1 [] [1] [0] [1] [0] 2 ![1, 1]
  dot_S128x8192_S8192x1_S128x1_1_0_0_1_n_n_wf : DotDims.WF S128x8192 S8192x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .i32 = 32 ∨ (Rect.block (s := S4096x8192) S128x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x1.size a ≤ S8192x1.size a
  hwx0_3 : ∀ i : grid0.Coords, EltTy.bits .f32 = 32 ∨ (Rect.block (s := S8192x1) S8192x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S4096x1.size a
  hwx0_6 : ∀ i : grid0.Coords, EltTy.bits .f32 = 32 ∨ (Rect.block (s := S4096x1) S128x1.size (cc0_transform_6 i) (hinb0_6 i)).WholeWords (EltTy.packing .f32)

variable [Facts₀]

def gather_S4096x8192_S4096x1x1_S4096x1_n_1_0_0_1_2_11 : GatherDims S4096x8192 S4096x1x1 S4096x1 where
  offsetDims := []
  collapsedSliceDims := [1]
  operandBatchingDims := [0]
  startIndicesBatchingDims := [0]
  startIndexMap := [1]
  indexVectorDim := 2
  sliceSizes := ![1, 1]
  wf := gather_S4096x8192_S4096x1x1_S4096x1_n_1_0_0_1_2_11_wf
def dot_S128x8192_S8192x1_S128x1_1_0_0_1_n_n : DotDims S128x8192 S8192x1 S128x1 where
  lhsContracting := [1]
  rhsContracting := [0]
  lhsNonContracting := [0]
  rhsNonContracting := [1]
  lhsBatch := []
  rhsBatch := []
  wf := dot_S128x8192_S8192x1_S128x1_1_0_0_1_n_n_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8192x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_2) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S8192 : Shape := ⟨1, ![8192]⟩
abbrev S1x8192 : Shape := ⟨2, ![1, 8192]⟩

abbrev nBuf : Space → Nat
  | .hbm => 136
  | .vmem => 0
  | .smem => 0
  | _ => 0

abbrev hbmTy0_0 (i : Nat) : BufTy := match i % 128 with
  | 0 => ⟨S4096x8192, .f32⟩
  | 1 => ⟨S4096, .i32⟩
  | 2 => ⟨S4096x8192, .i1⟩
  | 3 => ⟨S_, .i32⟩
  | 4 => ⟨S4096, .i32⟩
  | 5 => ⟨S4096, .i1⟩
  | 6 => ⟨S_, .i32⟩
  | 7 => ⟨S4096, .i32⟩
  | 8 => ⟨S4096, .i1⟩
  | 9 => ⟨S4096, .i1⟩
  | 10 => ⟨S_, .i32⟩
  | 11 => ⟨S_, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S4096x1, .i32⟩
  | 19 => ⟨S_, .i32⟩
  | 20 => ⟨S4096x1, .i32⟩
  | 21 => ⟨S4096x1, .i1⟩
  | 22 => ⟨S_, .i32⟩
  | 23 => ⟨S4096x1, .i32⟩
  | 24 => ⟨S4096x1, .i32⟩
  | 25 => ⟨S4096x1, .i32⟩
  | 26 => ⟨S4096x1x1, .i32⟩
  | 27 => ⟨S1, .i32⟩
  | 28 => ⟨S_, .i32⟩
  | 29 => ⟨S4096x1x1, .i32⟩
  | 30 => ⟨S4096x1x1, .i1⟩
  | 31 => ⟨S1x1x1, .i32⟩
  | 32 => ⟨S4096x1x1, .i32⟩
  | 33 => ⟨S4096x1x1, .i1⟩
  | 34 => ⟨S4096x1x1, .i1⟩
  | 35 => ⟨S_, .i1⟩
  | 36 => ⟨S4096x1, .i1⟩
  | 37 => ⟨S4096x1, .i1⟩
  | 38 => ⟨S_, .i1⟩
  | 39 => ⟨S4096x1, .i1⟩
  | 40 => ⟨S4096x1, .i1⟩
  | 41 => ⟨S4096, .i1⟩
  | 42 => ⟨S4096, .i1⟩
  | 43 => ⟨S4096x1, .i32⟩
  | 44 => ⟨S_, .i32⟩
  | 45 => ⟨S4096x1, .i32⟩
  | 46 => ⟨S4096x1, .i1⟩
  | 47 => ⟨S_, .i32⟩
  | 48 => ⟨S4096x1, .i32⟩
  | 49 => ⟨S4096x1, .i32⟩
  | 50 => ⟨S4096x1, .i32⟩
  | 51 => ⟨S4096x1x1, .i32⟩
  | 52 => ⟨S1, .i32⟩
  | 53 => ⟨S_, .i32⟩
  | 54 => ⟨S4096x1x1, .i32⟩
  | 55 => ⟨S4096x1x1, .i1⟩
  | 56 => ⟨S1x1x1, .i32⟩
  | 57 => ⟨S4096x1x1, .i32⟩
  | 58 => ⟨S4096x1x1, .i1⟩
  | 59 => ⟨S4096x1x1, .i1⟩
  | 60 => ⟨S_, .i1⟩
  | 61 => ⟨S4096x1, .i1⟩
  | 62 => ⟨S4096x1, .f32⟩
  | 63 => ⟨S_, .f32⟩
  | 64 => ⟨S4096x1, .f32⟩
  | 65 => ⟨S4096x1, .f32⟩
  | 66 => ⟨S8192, .i32⟩
  | 67 => ⟨S1x8192, .i32⟩
  | 68 => ⟨S4096x1, .i32⟩
  | 69 => ⟨S4096x8192, .i32⟩
  | 70 => ⟨S4096x8192, .i32⟩
  | 71 => ⟨S4096x8192, .i1⟩
  | 72 => ⟨S4096x8192, .i1⟩
  | 73 => ⟨S4096x8192, .f32⟩
  | 74 => ⟨S4096x8192, .f32⟩
  | 75 => ⟨S_, .f32⟩
  | 76 => ⟨S4096x8192, .f32⟩
  | 77 => ⟨S4096x8192, .f32⟩
  | 78 => ⟨S_, .f32⟩
  | 79 => ⟨S4096x8192, .f32⟩
  | 80 => ⟨S4096x8192, .f32⟩
  | 81 => ⟨S4096x8192, .f32⟩
  | 82 => ⟨S4096x8192, .f32⟩
  | 83 => ⟨S4096x8192, .i32⟩
  | 84 => ⟨S_, .i32⟩
  | 85 => ⟨S4096, .i32⟩
  | 86 => ⟨S_, .f32⟩
  | 87 => ⟨S4096, .f32⟩
  | 88 => ⟨S_, .i32⟩
  | 89 => ⟨S4096, .i32⟩
  | 90 => ⟨S4096, .i32⟩
  | 91 => ⟨S4096, .f32⟩
  | 92 => ⟨S4096, .f32⟩
  | 93 => ⟨S_, .i32⟩
  | 94 => ⟨S4096, .i32⟩
  | 95 => ⟨S4096, .i1⟩
  | 96 => ⟨S4096, .i1⟩
  | 97 => ⟨S_, .f32⟩
  | 98 => ⟨S_, .f32⟩
  | 99 => ⟨S4096, .f32⟩
  | 100 => ⟨S4096, .f32⟩
  | 101 => ⟨S4096x8192, .f32⟩
  | 102 => ⟨S_, .f32⟩
  | 103 => ⟨S4096x8192, .f32⟩
  | 104 => ⟨S4096x8192, .f32⟩
  | 105 => ⟨S4096x8192, .f32⟩
  | 106 => ⟨S4096x8192, .f32⟩
  | 107 => ⟨S4096x8192, .i32⟩
  | 108 => ⟨S_, .i32⟩
  | 109 => ⟨S4096, .i32⟩
  | 110 => ⟨S_, .f32⟩
  | 111 => ⟨S4096, .f32⟩
  | 112 => ⟨S_, .i32⟩
  | 113 => ⟨S4096, .i32⟩
  | 114 => ⟨S4096, .i32⟩
  | 115 => ⟨S4096, .f32⟩
  | 116 => ⟨S4096, .f32⟩
  | 117 => ⟨S_, .f32⟩
  | 118 => ⟨S_, .f32⟩
  | 119 => ⟨S4096, .f32⟩
  | 120 => ⟨S4096, .f32⟩
  | 121 => ⟨S4096, .i32⟩
  | 122 => ⟨S_, .i32⟩
  | 123 => ⟨S_, .i32⟩
  | 124 => ⟨S_, .i32⟩
  | 125 => ⟨S_, .i32⟩
  | 126 => ⟨S_, .f32⟩
  | 127 => ⟨S_, .f32⟩
  | _ => ⟨S4096x8192, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_c_4 : Ref sig .tc := ⟨.hbm, 38, rfl⟩
abbrev main_call1_v14 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_cst : Ref sig .tc := ⟨.hbm, 75, rfl⟩
abbrev main_v21 : Ref sig .tc := ⟨.hbm, 76, rfl⟩
abbrev main_v22 : Ref sig .tc := ⟨.hbm, 77, rfl⟩
abbrev main_call3_cst : Ref sig .tc := ⟨.hbm, 78, rfl⟩
abbrev main_call3_v0 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_3 : Ref sig .tc := ⟨.hbm, 84, rfl⟩
abbrev main_v27 : Ref sig .tc := ⟨.hbm, 85, rfl⟩
abbrev main_cst_4 : Ref sig .tc := ⟨.hbm, 86, rfl⟩
abbrev main_v28 : Ref sig .tc := ⟨.hbm, 87, rfl⟩
abbrev main_c_5 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_c_6 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_cst_7 : Ref sig .tc := ⟨.hbm, 97, rfl⟩
abbrev main_call4_v0 : Ref sig .tc := ⟨.hbm, 98, rfl⟩
abbrev main_call4_v1 : Ref sig .tc := ⟨.hbm, 99, rfl⟩
abbrev main_v36 : Ref sig .tc := ⟨.hbm, 100, rfl⟩
abbrev main_v37 : Ref sig .tc := ⟨.hbm, 101, rfl⟩
abbrev main_call5_cst : Ref sig .tc := ⟨.hbm, 102, rfl⟩
abbrev main_call5_v0 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_c_8 : Ref sig .tc := ⟨.hbm, 108, rfl⟩
abbrev main_v42 : Ref sig .tc := ⟨.hbm, 109, rfl⟩
abbrev main_cst_9 : Ref sig .tc := ⟨.hbm, 110, rfl⟩
abbrev main_v43 : Ref sig .tc := ⟨.hbm, 111, rfl⟩
abbrev main_c_10 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_11 : Ref sig .tc := ⟨.hbm, 117, rfl⟩
abbrev main_call6_v0 : Ref sig .tc := ⟨.hbm, 118, rfl⟩
abbrev main_call6_v1 : Ref sig .tc := ⟨.hbm, 119, rfl⟩
abbrev main_v48 : Ref sig .tc := ⟨.hbm, 120, rfl⟩
abbrev main_v49 : Ref sig .tc := ⟨.hbm, 121, rfl⟩
abbrev main_c_12 : Ref sig .tc := ⟨.hbm, 122, rfl⟩
abbrev main_v50 : Ref sig .tc := ⟨.hbm, 123, rfl⟩
abbrev main_c_13 : Ref sig .tc := ⟨.hbm, 124, rfl⟩
abbrev main_v51 : Ref sig .tc := ⟨.hbm, 125, rfl⟩
abbrev main_v52 : Ref sig .tc := ⟨.hbm, 126, rfl⟩
abbrev main_cst_14 : Ref sig .tc := ⟨.hbm, 127, rfl⟩
abbrev main_v53 : Ref sig .tc := ⟨.hbm, 128, rfl⟩
abbrev main_v54 : Ref sig .tc := ⟨.hbm, 129, rfl⟩
abbrev main_cst_15 : Ref sig .tc := ⟨.hbm, 130, rfl⟩
abbrev main_v55 : Ref sig .tc := ⟨.hbm, 131, rfl⟩
abbrev main_v56 : Ref sig .tc := ⟨.hbm, 132, rfl⟩
abbrev main_cst_16 : Ref sig .tc := ⟨.hbm, 133, rfl⟩
abbrev main_v57 : Ref sig .tc := ⟨.hbm, 134, rfl⟩
abbrev main_v58 : Ref sig .tc := ⟨.hbm, 135, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  natLt_1_32 : 1 < 32
  reducesTo_S4096x8192_S4096_d1 : S4096x8192.ReducesTo [1] S4096
  reducesTo_S4096_S_d0 : S4096.ReducesTo [0] S_
  gather_S4096x8192_S4096x1x1_S4096x1_n_1_0_0_1_2_11_wf : GatherDims.WF S4096x8192 S4096x1x1 S4096x1 [] [1] [0] [1] [0] 2 ![1, 1]

variable [Facts₀]

def gather_S4096x8192_S4096x1x1_S4096x1_n_1_0_0_1_2_11 : GatherDims S4096x8192 S4096x1x1 S4096x1 where
  offsetDims := []
  collapsedSliceDims := [1]
  operandBatchingDims := [0]
  startIndicesBatchingDims := [0]
  startIndexMap := [1]
  indexVectorDim := 2
  sliceSizes := ![1, 1]
  wf := gather_S4096x8192_S4096x1x1_S4096x1_n_1_0_0_1_2_11_wf

class Facts : Prop extends Facts₀ where

variable [Facts]
-- ==== Proof.HostSpec.lean ====
/-
  The host arithmetic of the ranking / rejection loss, as pure functions of the three argument arrays
  (scores `a0 : [4096, 8192]` floats, ground-truth indices `a1 : [4096]` words, validity `a2 : [4096, 8192]` bits),
  written with the operations both programs print, over literal shapes, at the ideal values.

  * The shared head: the in-range test of the index, its clip into [0, 8191], the row-wise take of a table at the
    clipped index (with its wrap of negative indices and its bounds mask), the sample mask.
  * One program's middle (`rlA`, `rjA`): from three per-row sums `R0`, `R1`, `R2` (ranking terms over all valid
    columns, rejection terms, the count of valid columns, each an [4096, 1] column) it subtracts the ground-truth
    column's own term and count, then divides and masks.
  * The other's middle (`rlB`, `rjB`): the sums over the valid columns other than the ground-truth one, with counts
    taken as integers.
  * The shared tail (`fin0`, `fin1`, `fin2`): the means over the contributing samples and their weighted sum.
  The shape side conditions are hypotheses: each program passes its own witnesses.
-/
import Idealize.ShloMosaic.PureOps
import Idealize.ShloMosaic.PureOps.Ideal
import Idealize.ShloMosaic.PureOps.ShapeOps
import Idealize.ShloMosaic.PureOps.Contract
import Idealize.ShloMosaic.Lib.ValueIdx

noncomputable section

namespace Cert.HostSpec

open Idealize.ShloMosaic

abbrev S4096x8192 : Shape := ⟨2, ![4096, 8192]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S8192x1 : Shape := ⟨2, ![8192, 1]⟩
abbrev S8192 : Shape := ⟨1, ![8192]⟩
abbrev S1x8192 : Shape := ⟨2, ![1, 8192]⟩

/-- The shape side conditions the operations below take. -/
structure Sh : Prop where
  b_4096 : S_.BroadcastsInDim S4096 (![] : Fin 0 → Fin S4096.rank)
  b_4096_col : S4096.BroadcastsInDim S4096x1 (![0] : Fin 1 → Fin S4096x1.rank)
  b_col : S_.BroadcastsInDim S4096x1 (![] : Fin 0 → Fin S4096x1.rank)
  c_col_cube : S4096x1.ShapeCasts S4096x1x1
  b_cube : S_.BroadcastsInDim S4096x1x1 (![] : Fin 0 → Fin S4096x1x1.rank)
  b_1_111 : S1.BroadcastsInDim S1x1x1 (![2] : Fin 1 → Fin S1x1x1.rank)
  b_111_cube : S1x1x1.BroadcastsInDim S4096x1x1 (![0, 1, 2] : Fin 3 → Fin S4096x1x1.rank)
  r_cube_col : S4096x1x1.ReducesTo [2] S4096x1
  h_S_ : 0 < S_.numel
  c_col_4096 : S4096x1.ShapeCasts S4096
  r_4096 : S4096.ReducesTo [0] S_
  lt_1_32 : 1 < 32

variable (sh : Sh)

/-! ## The shared head -/

/-- `0 ≤ a1 < 8192`, per sample. -/
def inRange (a1 : IVec S4096 32) : IVec S4096 1 :=
  andi (cmpi .sge a1 (broadcastInDim S4096 ![] sh.b_4096 (constantI S_ 32 0#32)))
    (cmpi .slt a1 (broadcastInDim S4096 ![] sh.b_4096 (constantI S_ 32 8192#32)))

/-- The index clipped into [0, 8191]. -/
def clipIdx (a1 : IVec S4096 32) : IVec S4096 32 :=
  minsi (broadcastInDim S4096 ![] sh.b_4096 (id (constantI S_ 32 8191#32)))
    (maxsi (broadcastInDim S4096 ![] sh.b_4096 (id (constantI S_ 32 0#32))) a1)

/-- The clipped index as a column. -/
def clipCol (a1 : IVec S4096 32) : IVec S4096x1 32 :=
  broadcastInDim S4096x1 ![0] sh.b_4096_col (clipIdx sh a1)

/-- The take's start indices: negative positions wrapped by the row length, laid out [4096, 1, 1]. -/
def takeIdx (a1 : IVec S4096 32) : IVec S4096x1x1 32 :=
  shapeCast S4096x1x1
    (select (cmpi .slt (clipCol sh a1) (broadcastInDim S4096x1 ![] sh.b_col (constantI S_ 32 0#32)))
      (addi (clipCol sh a1) (broadcastInDim S4096x1 ![] sh.b_col (constantI S_ 32 8192#32)))
      (clipCol sh a1))
    sh.c_col_cube

/-- The take's bounds mask: every start index within [0, 8191]. -/
def takeInb (a1 : IVec S4096 32) : IVec S4096x1 1 :=
  Host.reduce IntOp.andi
    (andi (cmpi .sge (takeIdx sh a1) (broadcastInDim S4096x1x1 ![] sh.b_cube (constantI S_ 32 0#32)))
      (cmpi .sle (takeIdx sh a1)
        (broadcastInDim S4096x1x1 ![0, 1, 2] sh.b_111_cube (broadcastInDim S1x1x1 ![2] sh.b_1_111 (constantI S1 32 8191#32)))))
    (constantI S_ 1 1#1) sh.r_cube_col sh.h_S_

/-- `take_along_axis(x, clip[:, None], axis=1)`: the gathered column where the bounds mask holds, the fill elsewhere. -/
def takeRows {α : Type} (d : GatherDims S4096x8192 S4096x1x1 S4096x1) (x : S4096x8192.Idx → α) (fill : S4096x1.Idx → α)
    (a1 : IVec S4096 32) : S4096x1.Idx → α :=
  select (takeInb sh a1) (Host.gather d x (takeIdx sh a1)) fill

/-- The validity bit at the ground-truth column, per sample. -/
def gtValid (d : GatherDims S4096x8192 S4096x1x1 S4096x1) (a1 : IVec S4096 32) (a2 : IVec S4096x8192 1) : IVec S4096 1 :=
  shapeCast S4096 (takeRows sh d a2 (broadcastInDim S4096x1 ![] sh.b_col (constantI S_ 1 1#1)) a1) sh.c_col_4096

/-- The samples that contribute: index in range and ground-truth column valid. -/
def sampleOk (d : GatherDims S4096x8192 S4096x1x1 S4096x1) (a1 : IVec S4096 32) (a2 : IVec S4096x8192 1) : IVec S4096 1 :=
  andi (inRange sh a1) (gtValid sh d a1 a2)

/-- The score at the ground-truth column, per sample, as a column. -/
def posCol (d : GatherDims S4096x8192 S4096x1x1 S4096x1) (a0 : FVec Ideal S4096x8192 .f32) (a1 : IVec S4096 32) :
    FVec Ideal S4096x1 .f32 :=
  takeRows sh d a0 (broadcastInDim S4096x1 ![] sh.b_col (constant S_ .f32 0x7FC00000#32)) a1

/-! ## The shared tail -/

/-- The number of contributing samples, at least one, as a float. -/
def denom (sok : IVec S4096 1) : FVec Ideal S_ .f32 :=
  sitofp .f32 (maxsi (Host.reduce IntOp.addi (extui 32 sok sh.lt_1_32) (constantI S_ 32 0#32) sh.r_4096 sh.h_S_) (constantI S_ 32 1#32))

/-- The mean of a per-sample loss over the contributing samples. -/
def meanOver (l : FVec Ideal S4096 .f32) (sok : IVec S4096 1) : FVec Ideal S_ .f32 :=
  Host.divf (Host.reduceAdd l (constant S_ .f32 0x00000000#32) sh.r_4096 sh.h_S_) (denom sh sok)

/-- The total: the ranking mean plus a tenth (as the float literal) of the rejection mean. -/
def total (rl rj : FVec Ideal S4096 .f32) (sok : IVec S4096 1) : FVec Ideal S_ .f32 :=
  addf (meanOver sh rl sok) (mulf (constant S_ .f32 0x3DCCCCCD#32) (meanOver sh rj sok))

/-! ## The first middle: all valid columns summed, the ground-truth column's term taken off afterwards -/

/-- The ranking loss per sample from the per-row sums `R0` (ranking terms over all valid columns) and `R2` (the count of
    valid columns): `(R0 − margin · gtv) / max (R2 − gtv, 1)` where the sample contributes and has a negative, else 0. -/
def rlA (R0 R2 : FVec Ideal S4096x1 .f32) (gtv sok : IVec S4096 1) : FVec Ideal S4096 .f32 :=
  select
    (andi sok (cmpf .ogt (subf (shapeCast S4096 R2 sh.c_col_4096) (uitofp .f32 gtv))
      (broadcastInDim S4096 ![] sh.b_4096 (constant S_ .f32 0x00000000#32))))
    (Host.divf
      (subf (shapeCast S4096 R0 sh.c_col_4096)
        (mulf (broadcastInDim S4096 ![] sh.b_4096 (constant S_ .f32 0x3E4CCCCD#32)) (uitofp .f32 gtv)))
      (maximumf (subf (shapeCast S4096 R2 sh.c_col_4096) (uitofp .f32 gtv))
        (broadcastInDim S4096 ![] sh.b_4096 (constant S_ .f32 0x3F800000#32))))
    (broadcastInDim S4096 ![] sh.b_4096 (id (constant S_ .f32 0x00000000#32)))

/-- The rejection loss per sample from `R1` (rejection terms over the valid columns) and `R2`: `R1 / max (R2, 1)` where
    the sample contributes, else 0. -/
def rjA (R1 R2 : FVec Ideal S4096x1 .f32) (sok : IVec S4096 1) : FVec Ideal S4096 .f32 :=
  select sok
    (Host.divf (shapeCast S4096 R1 sh.c_col_4096)
      (maximumf (shapeCast S4096 R2 sh.c_col_4096) (broadcastInDim S4096 ![] sh.b_4096 (constant S_ .f32 0x3F800000#32))))
    (broadcastInDim S4096 ![] sh.b_4096 (id (constant S_ .f32 0x00000000#32)))

/-! ## The second middle: the valid columns other than the ground-truth one, counted as integers -/

/-- The further shape side conditions of the second middle. -/
structure ShB : Prop where
  b_8192_row : S8192.BroadcastsInDim S1x8192 (![1] : Fin 1 → Fin S1x8192.rank)
  b_row_full : S1x8192.BroadcastsInDim S4096x8192 (![0, 1] : Fin 2 → Fin S4096x8192.rank)
  b_col_full : S4096x1.BroadcastsInDim S4096x8192 (![0, 1] : Fin 2 → Fin S4096x8192.rank)
  b_full : S_.BroadcastsInDim S4096x8192 (![] : Fin 0 → Fin S4096x8192.rank)
  r_full_4096 : S4096x8192.ReducesTo [1] S4096

variable (shB : ShB)

/-- The negatives of a row: valid columns whose position is not the clipped ground-truth index. -/
def negMask (a1 : IVec S4096 32) (a2 : IVec S4096x8192 1) : IVec S4096x8192 1 :=
  andi a2
    (cmpi .ne
      (broadcastInDim S4096x8192 ![0, 1] shB.b_row_full (broadcastInDim S1x8192 ![1] shB.b_8192_row (iotaInDim S8192 32 0)))
      (broadcastInDim S4096x8192 ![0, 1] shB.b_col_full (broadcastInDim S4096x1 ![0] sh.b_4096_col (clipIdx sh a1))))

/-- The number of negatives per row, as a word. -/
def negCnt (a1 : IVec S4096 32) (a2 : IVec S4096x8192 1) : IVec S4096 32 :=
  Host.reduce IntOp.addi (extui 32 (negMask sh shB a1 a2) sh.lt_1_32) (constantI S_ 32 0#32) shB.r_full_4096 sh.h_S_

/-- The ranking terms `max (margin − (pos − score), 0)` on the negatives, zero elsewhere. -/
def rankTerms (pos : FVec Ideal S4096x1 .f32) (a0 : FVec Ideal S4096x8192 .f32) (a1 : IVec S4096 32) (a2 : IVec S4096x8192 1) :
    FVec Ideal S4096x8192 .f32 :=
  mulf
    (maximumf
      (subf (broadcastInDim S4096x8192 ![] shB.b_full (constant S_ .f32 0x3E4CCCCD#32))
        (subf (broadcastInDim S4096x8192 ![0, 1] shB.b_col_full pos) a0))
      (broadcastInDim S4096x8192 ![] shB.b_full (constant S_ .f32 0x00000000#32)))
    (uitofp .f32 (negMask sh shB a1 a2))

/-- The ranking loss per sample: the mean of the ranking terms over the negatives where the sample contributes and has
    a negative, else 0. -/
def rlB (pos : FVec Ideal S4096x1 .f32) (a0 : FVec Ideal S4096x8192 .f32) (a1 : IVec S4096 32) (a2 : IVec S4096x8192 1)
    (sok : IVec S4096 1) : FVec Ideal S4096 .f32 :=
  select
    (andi sok (cmpi .sgt (negCnt sh shB a1 a2) (broadcastInDim S4096 ![] sh.b_4096 (constantI S_ 32 0#32))))
    (Host.divf
      (Host.reduceAdd (rankTerms sh shB pos a0 a1 a2) (constant S_ .f32 0x00000000#32) shB.r_full_4096 sh.h_S_)
      (sitofp .f32 (maxsi (negCnt sh shB a1 a2) (broadcastInDim S4096 ![] sh.b_4096 (constantI S_ 32 1#32)))))
    (broadcastInDim S4096 ![] sh.b_4096 (id (constant S_ .f32 0x00000000#32)))

/-- The number of valid columns per row, as a word. -/
def validCnt (a2 : IVec S4096x8192 1) : IVec S4096 32 :=
  Host.reduce IntOp.addi (extui 32 a2 sh.lt_1_32) (constantI S_ 32 0#32) shB.r_full_4096 sh.h_S_

/-- The rejection loss per sample: the mean of `max (−score, 0)` over the valid columns where the sample contributes,
    else 0. -/
def rjB (a0 : FVec Ideal S4096x8192 .f32) (a2 : IVec S4096x8192 1) (sok : IVec S4096 1) : FVec Ideal S4096 .f32 :=
  select sok
    (Host.divf
      (Host.reduceAdd
        (mulf (maximumf (Host.negf a0) (broadcastInDim S4096x8192 ![] shB.b_full (constant S_ .f32 0x00000000#32)))
          (uitofp .f32 a2))
        (constant S_ .f32 0x00000000#32) shB.r_full_4096 sh.h_S_)
      (sitofp .f32 (maxsi (validCnt sh shB a2) (broadcastInDim S4096 ![] sh.b_4096 (constantI S_ 32 1#32)))))
    (broadcastInDim S4096 ![] sh.b_4096 (id (constant S_ .f32 0x00000000#32)))

/-! ## The three per-row sums, as functions of whole arrays

`vi` is the validity array widened to words (a column is valid where its word is not zero), `pos` the column of
ground-truth scores, `ones` an [8192, 1] column each sum is contracted against. -/

open Idealize.ShloMosaic.ValueIdx in
/-- Row `r`'s ranking sum: over the valid columns `k`, `max (margin − (pos r − score r k), 0)`, times `ones k`. -/
def rowRank (a0 : FVec Ideal S4096x8192 .f32) (vi : IVec S4096x8192 32) (pos : FVec Ideal S4096x1 .f32)
    (ones : FVec Ideal S8192x1 .f32) : FVec Ideal S4096x1 .f32 := fun i =>
  ∑ k : Fin 8192, Scalar.select (IntOp.cmpi .ne (vi (ix2 (i 0) k)) 0#32)
    (max (Ideal.ofBits .f32 0x3E4CCCCD#32 - (pos (ix2 (i 0) (0 : Fin 1)) - a0 (ix2 (i 0) k))) 0) 0 * ones (ix2 k (0 : Fin 1))

open Idealize.ShloMosaic.ValueIdx in
/-- Row `r`'s rejection sum: over the valid columns `k`, `max (0 − score r k, 0)`, times `ones k`. -/
def rowRej (a0 : FVec Ideal S4096x8192 .f32) (vi : IVec S4096x8192 32) (ones : FVec Ideal S8192x1 .f32) :
    FVec Ideal S4096x1 .f32 := fun i =>
  ∑ k : Fin 8192, Scalar.select (IntOp.cmpi .ne (vi (ix2 (i 0) k)) 0#32) (max (0 - a0 (ix2 (i 0) k)) 0) 0 * ones (ix2 k (0 : Fin 1))

open Idealize.ShloMosaic.ValueIdx in
/-- Row `r`'s count of valid columns: the sum over `k` of the validity bit as a number, times `ones k`. -/
def rowCnt (vi : IVec S4096x8192 32) (ones : FVec Ideal S8192x1 .f32) : FVec Ideal S4096x1 .f32 := fun i =>
  ∑ k : Fin 8192, (((((IntOp.cmpi .ne (vi (ix2 (i 0) k)) 0#32).setWidth 32).toInt : ℤ) : ℝ) : EReal) * ones (ix2 k (0 : Fin 1))

end Cert.HostSpec

end
-- ==== Proof.KernelHost.lean ====
/-
  The kernel program's host lines after the region, read back as the host functions of HostSpec.

  After the region the program turns the three per-row sums the region wrote into the per-sample ranking and rejection
  losses (subtracting the ground-truth column's own term and count), masks them, and takes the means.
  Each buffer's contents, as the host lines leave them, is the corresponding HostSpec function of the buffers they read:
  the lines are composed one by one and the result is the definition unfolded.
-/
import proofs.«400832_j962072674814_3_alg».proof.Proof.Gen.KernelIdeal.Frame
import proofs.«400832_j962072674814_3_alg».proof.Proof.HostSpec
import Idealize.ShloMosaic.Lib.StableHlo.Run
import Idealize.ShloMosaic.PureOps.Ideal

noncomputable section

namespace Cert.KernelIdeal.Host

open Idealize.ShloMosaic Idealize.ShloMosaic.TcCoe
open Idealize.SL Idealize.SL.Sem
open Cert.KernelIdeal Cert.KernelIdeal.Gen Idealize.ShloMosaic.StableHlo

/-- The shape side conditions of the host functions, from the program's own. -/
theorem shK : Cert.HostSpec.Sh where
  b_4096 := bcast_S_S4096
  b_4096_col := bcast_S4096_S4096x1_0
  b_col := bcast_S_S4096x1
  c_col_cube := shapeCasts_S4096x1_S4096x1x1
  b_cube := bcast_S_S4096x1x1
  b_1_111 := bcast_S1_S1x1x1_2
  b_111_cube := bcast_S1x1x1_S4096x1x1_0_1_2
  r_cube_col := reducesTo_S4096x1x1_S4096x1_d2
  h_S_ := h_S_
  c_col_4096 := shapeCasts_S4096x1_S4096
  r_4096 := reducesTo_S4096_S_d0
  lt_1_32 := natLt_1_32

/-- The program's row-wise gather record. -/
abbrev dK : GatherDims Cert.HostSpec.S4096x8192 Cert.HostSpec.S4096x1x1 Cert.HostSpec.S4096x1 :=
  gather_S4096x8192_S4096x1x1_S4096x1_n_1_0_0_1_2_11

/-! ## The lines after the region, over any contents of the buffers they read -/

section Tail

variable (W : Valuation τ sig (Elt Ideal))

/-- The per-sample ranking loss the tail computes from the region's first and third outputs. -/
abbrev rlOf : FVec Ideal Cert.HostSpec.S4096 .f32 :=
  Cert.HostSpec.rlA shK (W (Proc.devRef .tc main_v13_0)) (W (Proc.devRef .tc main_v13_2)) (W (Proc.devRef .tc main_v8))
    (W (Proc.devRef .tc main_v9))

/-- The per-sample rejection loss the tail computes from the region's second and third outputs. -/
abbrev rjOf : FVec Ideal Cert.HostSpec.S4096 .f32 :=
  Cert.HostSpec.rjA shK (W (Proc.devRef .tc main_v13_1)) (W (Proc.devRef .tc main_v13_2)) (W (Proc.devRef .tc main_v9))

set_option maxHeartbeats 4000000 in
/-- The ranking mean. -/
theorem tail_v38 :
    StableHlo.after (List.flatten [hostOps1, hostOps1_1, hostOps1_2, hostOps1_3, hostOps1_4]) W (Proc.devRef .tc main_v38)
      = Cert.HostSpec.meanOver shK (rlOf W) (W (Proc.devRef .tc main_v9)) := by
  simp only [hostOps1, hostOps1_1, hostOps1_2, hostOps1_3, hostOps1_4, List.flatten_cons, List.flatten_nil, List.append_nil,
    List.cons_append, List.nil_append]
  after_results_simp
  rfl

set_option maxHeartbeats 4000000 in
/-- The rejection mean. -/
theorem tail_v40 :
    StableHlo.after (List.flatten [hostOps1, hostOps1_1, hostOps1_2, hostOps1_3, hostOps1_4]) W (Proc.devRef .tc main_v40)
      = Cert.HostSpec.meanOver shK (rjOf W) (W (Proc.devRef .tc main_v9)) := by
  simp only [hostOps1, hostOps1_1, hostOps1_2, hostOps1_3, hostOps1_4, List.flatten_cons, List.flatten_nil, List.append_nil,
    List.cons_append, List.nil_append]
  after_results_simp
  rfl

set_option maxHeartbeats 4000000 in
/-- The total. -/
theorem tail_v42 :
    StableHlo.after (List.flatten [hostOps1, hostOps1_1, hostOps1_2, hostOps1_3, hostOps1_4]) W (Proc.devRef .tc main_v42)
      = Cert.HostSpec.total shK (rlOf W) (rjOf W) (W (Proc.devRef .tc main_v9)) := by
  simp only [hostOps1, hostOps1_1, hostOps1_2, hostOps1_3, hostOps1_4, List.flatten_cons, List.flatten_nil, List.append_nil,
    List.cons_append, List.nil_append]
  after_results_simp
  rfl

end Tail

end Cert.KernelIdeal.Host

end
-- ==== Proof.KernelHead.lean ====
/-
  The kernel program's host lines before the region, read back as the host functions of HostSpec.

  Before the region the program computes, from its three arguments, the clipped ground-truth index, the validity bit
  and the score at that column (two row-wise takes), the sample mask, a column of ones and the validity bits widened to
  words. Each buffer's contents, as those lines leave it, is the corresponding HostSpec function of the arguments:
  the lines are composed one by one and the result is the definition unfolded.
-/
import proofs.«400832_j962072674814_3_alg».proof.Proof.Gen.KernelIdeal.Frame
import proofs.«400832_j962072674814_3_alg».proof.Proof.HostSpec
import proofs.«400832_j962072674814_3_alg».proof.Proof.KernelHost
import Idealize.ShloMosaic.Lib.StableHlo.Run
import Idealize.ShloMosaic.PureOps.Ideal

noncomputable section

namespace Cert.KernelIdeal.Host

open Idealize.ShloMosaic Idealize.ShloMosaic.TcCoe
open Idealize.SL Idealize.SL.Sem
open Cert.KernelIdeal Cert.KernelIdeal.Gen Idealize.ShloMosaic.StableHlo

/-! ## The lines before the region -/

section Head

variable (m : (ℓ : Loc nD τ sig) → Buf (Elt Ideal) ℓ) (c : Dev nD)

/-- The scores, the ground-truth indices and the validity bits as launched. -/
abbrev arg0 : FVec Ideal Cert.HostSpec.S4096x8192 .f32 := m ((c : Thread nD τ).loc main_arg0)
abbrev arg1 : IVec Cert.HostSpec.S4096 32 := m ((c : Thread nD τ).loc main_arg1)
abbrev arg2 : IVec Cert.HostSpec.S4096x8192 1 := m ((c : Thread nD τ).loc main_arg2)

set_option maxHeartbeats 4000000 in
/-- The validity bit at the ground-truth column. -/
theorem head_v8 : V m c main_v8 = Cert.HostSpec.gtValid shK dK (arg1 m c) (arg2 m c) := by
  show StableHlo.after (List.flatten [hostOps0, hostOps0_1, hostOps0_2, hostOps0_3, hostOps0_4, hostOps0_5, hostOps0_6])
    (fun b => m (c, b)) (Proc.devRef .tc main_v8) = _
  simp only [hostOps0, hostOps0_1, hostOps0_2, hostOps0_3, hostOps0_4, hostOps0_5, hostOps0_6, List.flatten_cons, List.flatten_nil,
    List.append_nil, List.cons_append, List.nil_append]
  after_results_simp <;> (try simp only [TRef.ofBuf, TRef.toBuf, cast_eq]) <;> rfl

set_option maxHeartbeats 4000000 in
/-- The sample mask. -/
theorem head_v9 : V m c main_v9 = Cert.HostSpec.sampleOk shK dK (arg1 m c) (arg2 m c) := by
  show StableHlo.after (List.flatten [hostOps0, hostOps0_1, hostOps0_2, hostOps0_3, hostOps0_4, hostOps0_5, hostOps0_6])
    (fun b => m (c, b)) (Proc.devRef .tc main_v9) = _
  simp only [hostOps0, hostOps0_1, hostOps0_2, hostOps0_3, hostOps0_4, hostOps0_5, hostOps0_6, List.flatten_cons, List.flatten_nil,
    List.append_nil, List.cons_append, List.nil_append]
  after_results_simp <;> (try simp only [TRef.ofBuf, TRef.toBuf, cast_eq]) <;> rfl

set_option maxHeartbeats 4000000 in
/-- The score at the ground-truth column. -/
theorem head_v10 : V m c main_v10 = Cert.HostSpec.posCol shK dK (arg0 m c) (arg1 m c) := by
  show StableHlo.after (List.flatten [hostOps0, hostOps0_1, hostOps0_2, hostOps0_3, hostOps0_4, hostOps0_5, hostOps0_6])
    (fun b => m (c, b)) (Proc.devRef .tc main_v10) = _
  simp only [hostOps0, hostOps0_1, hostOps0_2, hostOps0_3, hostOps0_4, hostOps0_5, hostOps0_6, List.flatten_cons, List.flatten_nil,
    List.append_nil, List.cons_append, List.nil_append]
  after_results_simp <;> (try simp only [TRef.ofBuf, TRef.toBuf, cast_eq]) <;> rfl

set_option maxHeartbeats 4000000 in
/-- The column of ones. -/
theorem head_v11 : (V m c main_v11 : FVec Ideal Cert.HostSpec.S8192x1 .f32)
    = broadcastInDim S8192x1 ![] bcast_S_S8192x1 (constant (F := Ideal) S_ .f32 0x3F800000#32) := by
  show StableHlo.after (List.flatten [hostOps0, hostOps0_1, hostOps0_2, hostOps0_3, hostOps0_4, hostOps0_5, hostOps0_6])
    (fun b => m (c, b)) (Proc.devRef .tc main_v11) = _
  simp only [hostOps0, hostOps0_1, hostOps0_2, hostOps0_3, hostOps0_4, hostOps0_5, hostOps0_6, List.flatten_cons, List.flatten_nil,
    List.append_nil, List.cons_append, List.nil_append]
  after_results_simp <;> (try simp only [TRef.ofBuf, TRef.toBuf, cast_eq]) <;> rfl

set_option maxHeartbeats 4000000 in
/-- The validity bits widened to words. -/
theorem head_v12 : (V m c main_v12 : IVec Cert.HostSpec.S4096x8192 32) = extui 32 (arg2 m c) natLt_1_32 := by
  show StableHlo.after (List.flatten [hostOps0, hostOps0_1, hostOps0_2, hostOps0_3, hostOps0_4, hostOps0_5, hostOps0_6])
    (fun b => m (c, b)) (Proc.devRef .tc main_v12) = _
  simp only [hostOps0, hostOps0_1, hostOps0_2, hostOps0_3, hostOps0_4, hostOps0_5, hostOps0_6, List.flatten_cons, List.flatten_nil,
    List.append_nil, List.cons_append, List.nil_append]
  after_results_simp <;> (try simp only [TRef.ofBuf, TRef.toBuf, cast_eq]) <;> rfl

end Head

end Cert.KernelIdeal.Host

end
-- ==== Proof.KernelBody.lean ====
/-
  The kernel body's three results, read at an index, at the ideal values.

  Each result is a product of a [128, 8192] matrix with the [8192, 1] weight column, accumulated into zero:
  at row p it is the sum over k of the matrix entry (p, k) times the weight k. The three matrices are
  pointwise in the block's inputs:

  * the masked hinge  select (mask(p,k) ≠ 0) (max (margin − (pos(p) − score(p,k))) 0) 0,
    where pos is a per-row column laid along the 8192 lanes;
  * the masked negative part  select (mask(p,k) ≠ 0) (max (0 − score(p,k)) 0) 0;
  * the mask itself as a number, its bit widened to a word and read as an integer.

  First the contraction's operand indices (one lemma per operand axis), then the product against the
  column for any left matrix, then the three results.
-/
import proofs.«400832_j962072674814_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx

/-! ## The contraction's operand indices, axis by axis

The dimension numbers contract the matrix's axis 1 with the column's axis 0; the matrix's axis 0 is the result's
axis 0 and the column's axis 1 the result's axis 1. -/

/-- The matrix's row is the result's row. -/
theorem lhs_axis0 (j : S128x1.Idx) (k : dot_S128x8192_S8192x1_S128x1_1_0_0_1_n_n.contr.Idx) :
    (dot_S128x8192_S8192x1_S128x1_1_0_0_1_n_n.lhsIdx j k 0).val = (j 0).val := by
  unfold DotDims.lhsIdx
  rw [dif_neg (show ¬(0 : Fin S128x8192.rank) ∈ dot_S128x8192_S8192x1_S128x1_1_0_0_1_n_n.lhsBatch by decide),
    dif_pos (show (0 : Fin S128x8192.rank) ∈ dot_S128x8192_S8192x1_S128x1_1_0_0_1_n_n.lhsNonContracting by decide)]
  rfl

/-- The matrix's column is the contraction position. -/
theorem lhs_axis1 (j : S128x1.Idx) (k : dot_S128x8192_S8192x1_S128x1_1_0_0_1_n_n.contr.Idx) :
    (dot_S128x8192_S8192x1_S128x1_1_0_0_1_n_n.lhsIdx j k 1).val = (k ⟨0, by decide⟩).val :=
  dot_S128x8192_S8192x1_S128x1_1_0_0_1_n_n.lhsIdx_val_of_single (cl := 1) rfl j k

/-- The column's row is the contraction position. -/
theorem rhs_axis0 (j : S128x1.Idx) (k : dot_S128x8192_S8192x1_S128x1_1_0_0_1_n_n.contr.Idx) :
    (dot_S128x8192_S8192x1_S128x1_1_0_0_1_n_n.rhsIdx j k 0).val = (k ⟨0, by decide⟩).val :=
  dot_S128x8192_S8192x1_S128x1_1_0_0_1_n_n.rhsIdx_val_of_single (cr := 0) rfl j k

/-- The column's one lane is the result's one lane. -/
theorem rhs_axis1 (j : S128x1.Idx) (k : dot_S128x8192_S8192x1_S128x1_1_0_0_1_n_n.contr.Idx) :
    (dot_S128x8192_S8192x1_S128x1_1_0_0_1_n_n.rhsIdx j k 1).val = (j 1).val := by
  unfold DotDims.rhsIdx
  rw [dif_neg (show ¬(1 : Fin S8192x1.rank) ∈ dot_S128x8192_S8192x1_S128x1_1_0_0_1_n_n.rhsBatch by decide),
    dif_pos (show (1 : Fin S8192x1.rank) ∈ dot_S128x8192_S8192x1_S128x1_1_0_0_1_n_n.rhsNonContracting by decide)]
  rfl

/-! ## A matrix against the weight column -/

/-- Any [128, 8192] matrix times the weight column, into zero: at row p the sum over k of L(p,k) · w(k). -/
theorem matmul_col (L : FVec Ideal S128x8192 .f32) (x3 : Vec Ideal S8192x1 .f32) (p : Fin 128) (u : Fin 1) :
    matmul dot_S128x8192_S8192x1_S128x1_1_0_0_1_n_n none L (Gen.k0_pay2 (F := Ideal) x3) (constant (F := Ideal) S128x1 .f32 0x00000000#32) (ix2 p u)
      = ∑ k : Fin 8192, L (ix2 p k) * x3 (ix2 k (0 : Fin 1)) := by
  simp only [matmul]
  rw [Ideal.matmul_constant_zero_apply, ← Equiv.sum_comp (contrEquiv1 dot_S128x8192_S8192x1_S128x1_1_0_0_1_n_n 8192 rfl rfl).symm]
  refine Finset.sum_congr rfl fun k _ => ?_
  have hk := contrEquiv1_symm_val dot_S128x8192_S8192x1_S128x1_1_0_0_1_n_n 8192 rfl rfl k
  have hl : dot_S128x8192_S8192x1_S128x1_1_0_0_1_n_n.lhsIdx (ix2 p u) ((contrEquiv1 dot_S128x8192_S8192x1_S128x1_1_0_0_1_n_n 8192 rfl rfl).symm k) = ix2 p k := by
    funext a; apply Fin.ext
    match a with
    | ⟨0, _⟩ => exact lhs_axis0 _ _
    | ⟨1, _⟩ => exact (lhs_axis1 _ _).trans hk
  have hr : dot_S128x8192_S8192x1_S128x1_1_0_0_1_n_n.rhsIdx (ix2 p u) ((contrEquiv1 dot_S128x8192_S8192x1_S128x1_1_0_0_1_n_n 8192 rfl rfl).symm k) = ix2 k (0 : Fin 1) := by
    funext a; apply Fin.ext
    match a with
    | ⟨0, _⟩ => exact (rhs_axis0 _ _).trans hk
    | ⟨1, _⟩ =>
      refine (rhs_axis1 _ _).trans ?_
      show u.val = 0
      omega
  rw [hl, hr]
  unfold Gen.k0_pay2
  rw [shapeCast_self]

/-! ## The per-row column laid along the lanes -/

/-- A [128, 1] column laid along 8192 lanes reads, at (p, k), the column at row p. -/
theorem bcast_col {α : Type} (v : S128x1.Idx → α) (h : S128x1.Broadcasts S128x8192) (p : Fin 128) (k : Fin 8192) :
    broadcastTo S128x8192 v h (ix2 p k) = v (ix2 p (0 : Fin 1)) := by
  refine broadcastTo_apply v h (ix2 p k) (ix2 p (0 : Fin 1)) fun ax => ?_
  match ax with
  | ⟨0, _⟩ =>
    show p.val = if (128 : ℕ) = 1 then 0 else p.val
    rw [if_neg (by decide)]
  | ⟨1, _⟩ => rfl

/-! ## The three results at a row -/

/-- The masked hinge against the weights: at row p, the sum over k of
    select (mask(p,k) ≠ 0) (max (margin − (pos(p) − score(p,k))) 0) 0 · w(k). -/
theorem pay3_apply (x0 : Vec Ideal S128x8192 .f32) (x1 : Vec Ideal S128x8192 .i32) (x2 : Vec Ideal S128x1 .f32)
    (x3 : Vec Ideal S8192x1 .f32) (p : Fin 128) (u : Fin 1) :
    Gen.k0_pay3 (F := Ideal) x0 x1 x2 x3 (ix2 p u)
      = ∑ k : Fin 8192, Scalar.select (IntOp.cmpi .ne (x1 (ix2 p k)) 0#32)
          (max (Ideal.ofBits .f32 0x3E4CCCCD#32 - (x2 (ix2 p (0 : Fin 1)) - x0 (ix2 p k))) 0) 0 * x3 (ix2 k (0 : Fin 1)) := by
  unfold Gen.k0_pay3
  refine (matmul_col _ x3 p u).trans ?_
  refine Finset.sum_congr rfl fun k _ => ?_
  refine congrArg (· * x3 (ix2 k (0 : Fin 1))) ?_
  show Scalar.select (IntOp.cmpi .ne (x1 (ix2 p k)) 0#32)
      (max (Ideal.ofBits .f32 0x3E4CCCCD#32
        - (broadcastTo S128x8192 (shapeCast S128x1 x2 _) _ (ix2 p k) - x0 (ix2 p k))) (Ideal.ofBits .f32 0x00000000#32))
      (Ideal.ofBits .f32 0x00000000#32) = _
  rw [shapeCast_self, bcast_col, Ideal.ofBits_zero_f32]

/-- The masked negative part against the weights: at row p, the sum over k of
    select (mask(p,k) ≠ 0) (max (0 − score(p,k)) 0) 0 · w(k). -/
theorem pay4_apply (x0 : Vec Ideal S128x8192 .f32) (x1 : Vec Ideal S128x8192 .i32)
    (x3 : Vec Ideal S8192x1 .f32) (p : Fin 128) (u : Fin 1) :
    Gen.k0_pay4 (F := Ideal) x0 x1 x3 (ix2 p u)
      = ∑ k : Fin 8192, Scalar.select (IntOp.cmpi .ne (x1 (ix2 p k)) 0#32)
          (max (0 - x0 (ix2 p k)) 0) 0 * x3 (ix2 k (0 : Fin 1)) := by
  unfold Gen.k0_pay4
  refine (matmul_col _ x3 p u).trans ?_
  refine Finset.sum_congr rfl fun k _ => ?_
  refine congrArg (· * x3 (ix2 k (0 : Fin 1))) ?_
  show Scalar.select (IntOp.cmpi .ne (x1 (ix2 p k)) 0#32)
      (max (Ideal.ofBits .f32 0x00000000#32 - x0 (ix2 p k)) (Ideal.ofBits .f32 0x00000000#32))
      (Ideal.ofBits .f32 0x00000000#32) = _
  rw [Ideal.ofBits_zero_f32]

/-- The mask's count against the weights: at row p, the sum over k of the bit mask(p,k) ≠ 0, widened to a word
    and read as an integer, times w(k). -/
theorem pay5_apply (x1 : Vec Ideal S128x8192 .i32) (x3 : Vec Ideal S8192x1 .f32) (p : Fin 128) (u : Fin 1) :
    Gen.k0_pay5 (F := Ideal) x1 x3 (ix2 p u)
      = ∑ k : Fin 8192, (((((IntOp.cmpi .ne (x1 (ix2 p k)) 0#32).setWidth 32).toInt : ℤ) : ℝ) : EReal)
          * x3 (ix2 k (0 : Fin 1)) := by
  unfold Gen.k0_pay5
  refine (matmul_col _ x3 p u).trans ?_
  rfl

end Cert.KernelIdeal.Body

end
-- ==== Proof.KernelBlocks.lean ====
/-
  From the blocks the grid points write to the three whole output arrays of the region, at the ideal values.

  The grid has 32 points. Point t reads rows 128 t … 128 t + 127 of the scores [4096, 8192], of the validity words
  [4096, 8192] and of the ground-truth score column [4096, 1], and the whole weight column [8192, 1]; it writes rows
  128 t … 128 t + 127 of each of the three output columns [4096, 1]. Row p of what it writes is the body's sum over k
  for row p of its blocks (the body's results at an index), and row p of block t is row 128 t + p of the array: so
  every point writes its rows of ONE function of the whole arrays — the per-row ranking sum, rejection sum and count of
  valid columns. The 32 row blocks cover the 4096 rows (row r is in block r / 128), so each output array ends holding
  that function.

  In order: the index maps decided over the grid; a row of the three sums from the rows of the blocks; a block of an
  array read at an index; what a point writes back; an index of an output array in a point's block; the cover; the
  arrays.
-/
import proofs.«400832_j962072674814_3_alg».proof.Proof.Gen.KernelIdeal.Frame
import proofs.«400832_j962072674814_3_alg».proof.Proof.KernelBody
import proofs.«400832_j962072674814_3_alg».proof.Proof.HostSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.HostSpec (rowRank rowRej rowCnt)

variable (m : (ℓ : Loc nD τ sig) → Buf (Elt Ideal) ℓ)

/-! ## The index maps over the grid -/

/-- Every access of the body starts at the origin of its buffer. -/
theorem origin_zero : (![0, 0] : Fin 2 → Nat) = fun _ => 0 := funext fun a => by fin_cases a <;> rfl

/-- The block each window is on at point t, decided over the 32 points: block row t, block column 0, for the scores, the
    validity words, the ground-truth column and the three outputs; the one block (0, 0) for the weight column. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## A row of the three sums from the rows of the blocks

Over plain vectors: if row p of each block is row (i 0) of its array (and the weight block is the weight column), the
body's result at row p is the array function's value at i. -/

/-- The ranking sum. -/
theorem rank_of_rows (A0 : FVec Ideal S4096x8192 .f32) (VI : IVec S4096x8192 32) (POS : FVec Ideal S4096x1 .f32)
    (ONES : FVec Ideal S8192x1 .f32)
    (b0 : Vec Ideal S128x8192 .f32) (b1 : Vec Ideal S128x8192 .i32) (b2 : Vec Ideal S128x1 .f32) (b3 : Vec Ideal S8192x1 .f32)
    (i : S4096x1.Idx) (p : Fin 128) (u : Fin 1)
    (h0 : ∀ k : Fin 8192, b0 (ix2 p k) = A0 (ix2 (i 0) k))
    (h1 : ∀ k : Fin 8192, b1 (ix2 p k) = VI (ix2 (i 0) k))
    (h2 : b2 (ix2 p (0 : Fin 1)) = POS (ix2 (i 0) (0 : Fin 1)))
    (h3 : ∀ k : Fin 8192, b3 (ix2 k (0 : Fin 1)) = ONES (ix2 k (0 : Fin 1))) :
    Gen.k0_pay3 (F := Ideal) b0 b1 b2 b3 (ix2 p u) = rowRank A0 VI POS ONES i := by
  refine (Body.pay3_apply b0 b1 b2 b3 p u).trans ?_
  unfold rowRank
  refine Finset.sum_congr rfl fun k _ => ?_
  rw [h0 k, h1 k, h2, h3 k]

/-- The rejection sum. -/
theorem rej_of_rows (A0 : FVec Ideal S4096x8192 .f32) (VI : IVec S4096x8192 32) (ONES : FVec Ideal S8192x1 .f32)
    (b0 : Vec Ideal S128x8192 .f32) (b1 : Vec Ideal S128x8192 .i32) (b3 : Vec Ideal S8192x1 .f32)
    (i : S4096x1.Idx) (p : Fin 128) (u : Fin 1)
    (h0 : ∀ k : Fin 8192, b0 (ix2 p k) = A0 (ix2 (i 0) k))
    (h1 : ∀ k : Fin 8192, b1 (ix2 p k) = VI (ix2 (i 0) k))
    (h3 : ∀ k : Fin 8192, b3 (ix2 k (0 : Fin 1)) = ONES (ix2 k (0 : Fin 1))) :
    Gen.k0_pay4 (F := Ideal) b0 b1 b3 (ix2 p u) = rowRej A0 VI ONES i := by
  refine (Body.pay4_apply b0 b1 b3 p u).trans ?_
  unfold rowRej
  refine Finset.sum_congr rfl fun k _ => ?_
  rw [h0 k, h1 k, h3 k]

/-- The count of valid columns. -/
theorem cnt_of_rows (VI : IVec S4096x8192 32) (ONES : FVec Ideal S8192x1 .f32)
    (b1 : Vec Ideal S128x8192 .i32) (b3 : Vec Ideal S8192x1 .f32)
    (i : S4096x1.Idx) (p : Fin 128) (u : Fin 1)
    (h1 : ∀ k : Fin 8192, b1 (ix2 p k) = VI (ix2 (i 0) k))
    (h3 : ∀ k : Fin 8192, b3 (ix2 k (0 : Fin 1)) = ONES (ix2 k (0 : Fin 1))) :
    Gen.k0_pay5 (F := Ideal) b1 b3 (ix2 p u) = rowCnt VI ONES i := by
  refine (Body.pay5_apply b1 b3 p u).trans ?_
  unfold rowCnt
  refine Finset.sum_congr rfl fun k _ => ?_
  rw [h1 k, h3 k]

/-! ## A block of an array read at an index

A block's coordinate in its array is block index × block size + 1 × the coordinate inside the block. Stated for any
array of the window's shape, so that the arrays the region finds are never opened. -/

/-- Entry y of block t of a [4096, 8192] float array, in blocks of 128 rows, is the array at row 128 t + y₀, column y₁. -/
theorem scoreBlk_read (X : Vec Ideal S4096x8192 .f32) (t : Fin cfg0.N) (y : S128x8192.Idx) (i : S4096x8192.Idx)
    (h0 : (i 0).val = 128 * t.val + (y 0).val) (h1 : (i 1).val = (y 1).val) :
    (((cfg0.win 0).blk t).view.read (Elt Ideal) X : Vec Ideal S128x8192 .f32) y = X i := by
  obtain ⟨e0, e1, -⟩ := block_index t
  rw [View.read_apply]
  refine congrArg X (funext fun a => Fin.ext ?_)
  match a with
  | ⟨0, _⟩ => show win0_0.index t (0 : Fin 2) * 128 + 1 * (y 0).val = (i 0).val; rw [e0, h0]; omega
  | ⟨1, _⟩ => show win0_0.index t (1 : Fin 2) * 8192 + 1 * (y 1).val = (i 1).val; rw [e1, h1]; omega

/-- The same for a [4096, 8192] array of words. -/
theorem validBlk_read (X : Vec Ideal S4096x8192 .i32) (t : Fin cfg0.N) (y : S128x8192.Idx) (i : S4096x8192.Idx)
    (h0 : (i 0).val = 128 * t.val + (y 0).val) (h1 : (i 1).val = (y 1).val) :
    (((cfg0.win 1).blk t).view.read (Elt Ideal) X : Vec Ideal S128x8192 .i32) y = X i := by
  obtain ⟨-, -, e0, e1, -⟩ := block_index t
  rw [View.read_apply]
  refine congrArg X (funext fun a => Fin.ext ?_)
  match a with
  | ⟨0, _⟩ => show win0_1.index t (0 : Fin 2) * 128 + 1 * (y 0).val = (i 0).val; rw [e0, h0]; omega
  | ⟨1, _⟩ => show win0_1.index t (1 : Fin 2) * 8192 + 1 * (y 1).val = (i 1).val; rw [e1, h1]; omega

/-- Entry y of block t of a [4096, 1] column, in blocks of 128 rows, is the column at row 128 t + y₀. -/
theorem posBlk_read (X : Vec Ideal S4096x1 .f32) (t : Fin cfg0.N) (y : S128x1.Idx) (i : S4096x1.Idx)
    (h0 : (i 0).val = 128 * t.val + (y 0).val) (h1 : (i 1).val = (y 1).val) :
    (((cfg0.win 2).blk t).view.read (Elt Ideal) X : Vec Ideal S128x1 .f32) y = X i := by
  obtain ⟨-, -, -, -, e0, e1, -⟩ := block_index t
  rw [View.read_apply]
  refine congrArg X (funext fun a => Fin.ext ?_)
  match a with
  | ⟨0, _⟩ => show win0_2.index t (0 : Fin 2) * 128 + 1 * (y 0).val = (i 0).val; rw [e0, h0]; omega
  | ⟨1, _⟩ => show win0_2.index t (1 : Fin 2) * 1 + 1 * (y 1).val = (i 1).val; rw [e1, h1]; omega

/-- The one block of an [8192, 1] column is the column, at every point. -/
theorem onesBlk_read (X : Vec Ideal S8192x1 .f32) (t : Fin cfg0.N) (y : S8192x1.Idx) :
    (((cfg0.win 3).blk t).view.read (Elt Ideal) X : Vec Ideal S8192x1 .f32) y = X y := by
  obtain ⟨-, -, -, -, -, -, e0, e1, -⟩ := block_index t
  rw [View.read_apply]
  refine congrArg X (funext fun a => Fin.ext ?_)
  match a with
  | ⟨0, _⟩ => show win0_3.index t (0 : Fin 2) * 8192 + 1 * (y 0).val = (y 0).val; rw [e0]; omega
  | ⟨1, _⟩ => show win0_3.index t (1 : Fin 2) * 1 + 1 * (y 1).val = (y 1).val; rw [e1]; omega

/-! ## What a point writes back

First for any arrays: the body's result on block t of each array is block t of the row sums of the arrays. Then for
the arrays the region finds. -/

/-- The body's first result on the blocks at point t is block t of the ranking sums. -/
theorem rank_block (t : Fin cfg0.N) (X0 : Vec Ideal S4096x8192 .f32) (X1 : Vec Ideal S4096x8192 .i32)
    (X2 : Vec Ideal S4096x1 .f32) (X3 : Vec Ideal S8192x1 .f32) :
    (cfg0.win 4).cut (grid0.coords t) (k0_pay3 (F := Ideal) (((cfg0.win 0).blk t).view.read (Elt Ideal) X0)
        (((cfg0.win 1).blk t).view.read (Elt Ideal) X1) (((cfg0.win 2).blk t).view.read (Elt Ideal) X2)
        (((cfg0.win 3).blk t).view.read (Elt Ideal) X3))
      = ((cfg0.win 4).blk t).view.read (Elt Ideal) (rowRank X0 X1 X2 X3) := by
  obtain ⟨-, -, -, -, -, -, -, -, e0, -⟩ := block_index t
  funext j
  obtain ⟨p, u, rfl⟩ : ∃ (p : Fin 128) (u : Fin 1), j = ix2 p u := ⟨j 0, j 1, eq_ix2 j⟩
  show k0_pay3 (F := Ideal) (((cfg0.win 0).blk t).view.read (Elt Ideal) X0)
      (((cfg0.win 1).blk t).view.read (Elt Ideal) X1) (((cfg0.win 2).blk t).view.read (Elt Ideal) X2)
      (((cfg0.win 3).blk t).view.read (Elt Ideal) X3) (ix2 p u)
    = rowRank X0 X1 X2 X3 (((cfg0.win 4).blk t).view.emb (ix2 p u))
  have hrow : ((((cfg0.win 4).blk t).view.emb (ix2 p u)) 0).val = 128 * t.val + p.val := by
    show win0_4.index t (0 : Fin 2) * 128 + 1 * p.val = _
    rw [e0]; omega
  refine rank_of_rows X0 X1 X2 X3 (((cfg0.win 0).blk t).view.read (Elt Ideal) X0)
    (((cfg0.win 1).blk t).view.read (Elt Ideal) X1) (((cfg0.win 2).blk t).view.read (Elt Ideal) X2)
    (((cfg0.win 3).blk t).view.read (Elt Ideal) X3) (((cfg0.win 4).blk t).view.emb (ix2 p u)) p u ?_ ?_ ?_ ?_
  · exact fun k => scoreBlk_read X0 t (ix2 p k) (ix2 ((((cfg0.win 4).blk t).view.emb (ix2 p u)) 0) k) hrow rfl
  · exact fun k => validBlk_read X1 t (ix2 p k) (ix2 ((((cfg0.win 4).blk t).view.emb (ix2 p u)) 0) k) hrow rfl
  · exact posBlk_read X2 t (ix2 p (0 : Fin 1)) (ix2 ((((cfg0.win 4).blk t).view.emb (ix2 p u)) 0) (0 : Fin 1)) hrow rfl
  · exact fun k => onesBlk_read X3 t (ix2 k (0 : Fin 1))

/-- Point t writes, to the first output, rows 128 t … 128 t + 127 of the ranking sums of the arrays the region finds. -/
theorem rank_written (c : Dev nD) (t : Fin cfg0.N) :
    (dats m 0 c).flushed 4 t = ((cfg0.win 4).blk t).view.read (Elt Ideal)
      (rowRank (V m c main_arg0) (V m c main_v12) (V m c main_v10) (V m c main_v11)) := by
  show (cfg0.win 4).cut (grid0.coords t) ((dats m 0 c).after 4 t) = _
  rw [after0_4]
  unfold out0_4
  rw [View.canon_unit_zero origin_zero]
  simp only [View.ld_unit_zero (S := S128x8192) origin_zero, View.ld_unit_zero (S := S128x1) origin_zero,
    View.ld_unit_zero (S := S8192x1) origin_zero]
  unfold iblk
  exact rank_block t (V m c main_arg0) (V m c main_v12) (V m c main_v10) (V m c main_v11)

/-- The body's second result on the blocks at point t is block t of the rejection sums. -/
theorem rej_block (t : Fin cfg0.N) (X0 : Vec Ideal S4096x8192 .f32) (X1 : Vec Ideal S4096x8192 .i32)
    (X3 : Vec Ideal S8192x1 .f32) :
    (cfg0.win 5).cut (grid0.coords t) (k0_pay4 (F := Ideal) (((cfg0.win 0).blk t).view.read (Elt Ideal) X0)
        (((cfg0.win 1).blk t).view.read (Elt Ideal) X1) (((cfg0.win 3).blk t).view.read (Elt Ideal) X3))
      = ((cfg0.win 5).blk t).view.read (Elt Ideal) (rowRej X0 X1 X3) := by
  obtain ⟨-, -, -, -, -, -, -, -, -, -, e0, -⟩ := block_index t
  funext j
  obtain ⟨p, u, rfl⟩ : ∃ (p : Fin 128) (u : Fin 1), j = ix2 p u := ⟨j 0, j 1, eq_ix2 j⟩
  show k0_pay4 (F := Ideal) (((cfg0.win 0).blk t).view.read (Elt Ideal) X0)
      (((cfg0.win 1).blk t).view.read (Elt Ideal) X1) (((cfg0.win 3).blk t).view.read (Elt Ideal) X3) (ix2 p u)
    = rowRej X0 X1 X3 (((cfg0.win 5).blk t).view.emb (ix2 p u))
  have hrow : ((((cfg0.win 5).blk t).view.emb (ix2 p u)) 0).val = 128 * t.val + p.val := by
    show win0_5.index t (0 : Fin 2) * 128 + 1 * p.val = _
    rw [e0]; omega
  refine rej_of_rows X0 X1 X3 (((cfg0.win 0).blk t).view.read (Elt Ideal) X0)
    (((cfg0.win 1).blk t).view.read (Elt Ideal) X1) (((cfg0.win 3).blk t).view.read (Elt Ideal) X3)
    (((cfg0.win 5).blk t).view.emb (ix2 p u)) p u ?_ ?_ ?_
  · exact fun k => scoreBlk_read X0 t (ix2 p k) (ix2 ((((cfg0.win 5).blk t).view.emb (ix2 p u)) 0) k) hrow rfl
  · exact fun k => validBlk_read X1 t (ix2 p k) (ix2 ((((cfg0.win 5).blk t).view.emb (ix2 p u)) 0) k) hrow rfl
  · exact fun k => onesBlk_read X3 t (ix2 k (0 : Fin 1))

/-- Point t writes, to the second output, rows 128 t … 128 t + 127 of the rejection sums. -/
theorem rej_written (c : Dev nD) (t : Fin cfg0.N) :
    (dats m 0 c).flushed 5 t = ((cfg0.win 5).blk t).view.read (Elt Ideal)
      (rowRej (V m c main_arg0) (V m c main_v12) (V m c main_v11)) := by
  show (cfg0.win 5).cut (grid0.coords t) ((dats m 0 c).after 5 t) = _
  rw [after0_5]
  unfold out0_5
  rw [View.canon_unit_zero origin_zero]
  simp only [View.ld_unit_zero (S := S128x8192) origin_zero, View.ld_unit_zero (S := S8192x1) origin_zero]
  unfold iblk
  exact rej_block t (V m c main_arg0) (V m c main_v12) (V m c main_v11)

/-- The body's third result on the blocks at point t is block t of the counts of valid columns. -/
theorem cnt_block (t : Fin cfg0.N) (X1 : Vec Ideal S4096x8192 .i32) (X3 : Vec Ideal S8192x1 .f32) :
    (cfg0.win 6).cut (grid0.coords t) (k0_pay5 (F := Ideal) (((cfg0.win 1).blk t).view.read (Elt Ideal) X1)
        (((cfg0.win 3).blk t).view.read (Elt Ideal) X3))
      = ((cfg0.win 6).blk t).view.read (Elt Ideal) (rowCnt X1 X3) := by
  obtain ⟨-, -, -, -, -, -, -, -, -, -, -, -, e0, -⟩ := block_index t
  funext j
  obtain ⟨p, u, rfl⟩ : ∃ (p : Fin 128) (u : Fin 1), j = ix2 p u := ⟨j 0, j 1, eq_ix2 j⟩
  show k0_pay5 (F := Ideal) (((cfg0.win 1).blk t).view.read (Elt Ideal) X1)
      (((cfg0.win 3).blk t).view.read (Elt Ideal) X3) (ix2 p u)
    = rowCnt X1 X3 (((cfg0.win 6).blk t).view.emb (ix2 p u))
  have hrow : ((((cfg0.win 6).blk t).view.emb (ix2 p u)) 0).val = 128 * t.val + p.val := by
    show win0_6.index t (0 : Fin 2) * 128 + 1 * p.val = _
    rw [e0]; omega
  refine cnt_of_rows X1 X3 (((cfg0.win 1).blk t).view.read (Elt Ideal) X1)
    (((cfg0.win 3).blk t).view.read (Elt Ideal) X3) (((cfg0.win 6).blk t).view.emb (ix2 p u)) p u ?_ ?_
  · exact fun k => validBlk_read X1 t (ix2 p k) (ix2 ((((cfg0.win 6).blk t).view.emb (ix2 p u)) 0) k) hrow rfl
  · exact fun k => onesBlk_read X3 t (ix2 k (0 : Fin 1))

/-- Point t writes, to the third output, rows 128 t … 128 t + 127 of the counts of valid columns. -/
theorem cnt_written (c : Dev nD) (t : Fin cfg0.N) :
    (dats m 0 c).flushed 6 t = ((cfg0.win 6).blk t).view.read (Elt Ideal)
      (rowCnt (V m c main_v12) (V m c main_v11)) := by
  show (cfg0.win 6).cut (grid0.coords t) ((dats m 0 c).after 6 t) = _
  rw [after0_6]
  unfold out0_6
  rw [View.canon_unit_zero origin_zero]
  simp only [View.ld_unit_zero (S := S128x8192) origin_zero, View.ld_unit_zero (S := S8192x1) origin_zero]
  unfold iblk
  exact cnt_block t (V m c main_v12) (V m c main_v11)

/-! ## An index of an output array in a point's block -/

/-- An index of the first output is in point t's block iff each coordinate is in the block's range on its axis. -/
theorem mem_rankBlk (t : Fin cfg0.N) (i : S4096x1.Idx) :
    i ∈ ((cfg0.win 4).blk t).view.set ↔ ∀ a : Fin 2, win0_4.index t a * S128x1.size a ≤ (i a).val
      ∧ (i a).val < win0_4.index t a * S128x1.size a + S128x1.size a := by
  show i ∈ ((View.whole main_v13_0).slice (win0_4.rect t)).set ↔ _
  rw [View.set_slice_whole, Rect.mem_set_unit]
  exact Iff.rfl

/-- The same for the second output. -/
theorem mem_rejBlk (t : Fin cfg0.N) (i : S4096x1.Idx) :
    i ∈ ((cfg0.win 5).blk t).view.set ↔ ∀ a : Fin 2, win0_5.index t a * S128x1.size a ≤ (i a).val
      ∧ (i a).val < win0_5.index t a * S128x1.size a + S128x1.size a := by
  show i ∈ ((View.whole main_v13_1).slice (win0_5.rect t)).set ↔ _
  rw [View.set_slice_whole, Rect.mem_set_unit]
  exact Iff.rfl

/-- The same for the third output. -/
theorem mem_cntBlk (t : Fin cfg0.N) (i : S4096x1.Idx) :
    i ∈ ((cfg0.win 6).blk t).view.set ↔ ∀ a : Fin 2, win0_6.index t a * S128x1.size a ≤ (i a).val
      ∧ (i a).val < win0_6.index t a * S128x1.size a + S128x1.size a := by
  show i ∈ ((View.whole main_v13_2).slice (win0_6.rect t)).set ↔ _
  rw [View.set_slice_whole, Rect.mem_set_unit]
  exact Iff.rfl

/-! ## The cover: row r is in the block of point r / 128 -/

/-- Every index of the first output is in some point's block. -/
theorem rank_cover (i : S4096x1.Idx) :
    ∃ t : Fin cfg0.N, (cfg0.win 4).flush t = true ∧ i ∈ ((cfg0.win 4).blk t).view.set := by
  have hN : cfg0.N = 32 := N_0
  have hi0 : (i 0).val < 4096 := (i 0).isLt
  have hi1 : (i 1).val < 1 := (i 1).isLt
  refine ⟨⟨(i 0).val / 128, by rw [hN]; omega⟩, flush0_4 _, ?_⟩
  rw [mem_rankBlk]
  obtain ⟨-, -, -, -, -, -, -, -, e0, e1, -⟩ := block_index ⟨(i 0).val / 128, by rw [hN]; omega⟩
  intro a
  match a with
  | ⟨0, _⟩ =>
    show win0_4.index _ (0 : Fin 2) * 128 ≤ (i 0).val ∧ (i 0).val < win0_4.index _ (0 : Fin 2) * 128 + 128
    rw [e0]
    show (i 0).val / 128 * 128 ≤ (i 0).val ∧ (i 0).val < (i 0).val / 128 * 128 + 128
    omega
  | ⟨1, _⟩ =>
    show win0_4.index _ (1 : Fin 2) * 1 ≤ (i 1).val ∧ (i 1).val < win0_4.index _ (1 : Fin 2) * 1 + 1
    rw [e1]
    omega

/-- Every index of the second output is in some point's block. -/
theorem rej_cover (i : S4096x1.Idx) :
    ∃ t : Fin cfg0.N, (cfg0.win 5).flush t = true ∧ i ∈ ((cfg0.win 5).blk t).view.set := by
  have hN : cfg0.N = 32 := N_0
  have hi0 : (i 0).val < 4096 := (i 0).isLt
  have hi1 : (i 1).val < 1 := (i 1).isLt
  refine ⟨⟨(i 0).val / 128, by rw [hN]; omega⟩, flush0_5 _, ?_⟩
  rw [mem_rejBlk]
  obtain ⟨-, -, -, -, -, -, -, -, -, -, e0, e1, -⟩ := block_index ⟨(i 0).val / 128, by rw [hN]; omega⟩
  intro a
  match a with
  | ⟨0, _⟩ =>
    show win0_5.index _ (0 : Fin 2) * 128 ≤ (i 0).val ∧ (i 0).val < win0_5.index _ (0 : Fin 2) * 128 + 128
    rw [e0]
    show (i 0).val / 128 * 128 ≤ (i 0).val ∧ (i 0).val < (i 0).val / 128 * 128 + 128
    omega
  | ⟨1, _⟩ =>
    show win0_5.index _ (1 : Fin 2) * 1 ≤ (i 1).val ∧ (i 1).val < win0_5.index _ (1 : Fin 2) * 1 + 1
    rw [e1]
    omega

/-- Every index of the third output is in some point's block. -/
theorem cnt_cover (i : S4096x1.Idx) :
    ∃ t : Fin cfg0.N, (cfg0.win 6).flush t = true ∧ i ∈ ((cfg0.win 6).blk t).view.set := by
  have hN : cfg0.N = 32 := N_0
  have hi0 : (i 0).val < 4096 := (i 0).isLt
  have hi1 : (i 1).val < 1 := (i 1).isLt
  refine ⟨⟨(i 0).val / 128, by rw [hN]; omega⟩, flush0_6 _, ?_⟩
  rw [mem_cntBlk]
  obtain ⟨-, -, -, -, -, -, -, -, -, -, -, -, e0, e1⟩ := block_index ⟨(i 0).val / 128, by rw [hN]; omega⟩
  intro a
  match a with
  | ⟨0, _⟩ =>
    show win0_6.index _ (0 : Fin 2) * 128 ≤ (i 0).val ∧ (i 0).val < win0_6.index _ (0 : Fin 2) * 128 + 128
    rw [e0]
    show (i 0).val / 128 * 128 ≤ (i 0).val ∧ (i 0).val < (i 0).val / 128 * 128 + 128
    omega
  | ⟨1, _⟩ =>
    show win0_6.index _ (1 : Fin 2) * 1 ≤ (i 1).val ∧ (i 1).val < win0_6.index _ (1 : Fin 2) * 1 + 1
    rw [e1]
    omega

/-! ## The three output arrays after the run -/

/-- The first output ends holding the ranking sums, row by row, of the arrays as the region finds them. -/
theorem final4 (c : Dev nD) :
    (dats m 0 c).arrAt 4 cfg0.N = rowRank (V m c main_arg0) (V m c main_v12) (V m c main_v10) (V m c main_v11) :=
  (dats m 0 c).arrAt_eq_of_cover 4 (rowRank (V m c main_arg0) (V m c main_v12) (V m c main_v10) (V m c main_v11))
    (fun t _ => rank_written m c t) rank_cover

/-- The second output ends holding the rejection sums. -/
theorem final5 (c : Dev nD) :
    (dats m 0 c).arrAt 5 cfg0.N = rowRej (V m c main_arg0) (V m c main_v12) (V m c main_v11) :=
  (dats m 0 c).arrAt_eq_of_cover 5 (rowRej (V m c main_arg0) (V m c main_v12) (V m c main_v11))
    (fun t _ => rej_written m c t) rej_cover

/-- The third output ends holding the counts of valid columns. -/
theorem final6 (c : Dev nD) :
    (dats m 0 c).arrAt 6 cfg0.N = rowCnt (V m c main_v12) (V m c main_v11) :=
  (dats m 0 c).arrAt_eq_of_cover 6 (rowCnt (V m c main_v12) (V m c main_v11))
    (fun t _ => cnt_written m c t) cnt_cover

end Cert.KernelIdeal.Blocks

end
-- ==== Proof.KernelRun.lean ====
/-
  The kernel program's run with its three results named.

  Every weakly fair execution terminates (the generated frame run) and leaves, on every device, the total, the ranking
  mean and the rejection mean at the host functions of the launch arguments: the region's three outputs are the per-row
  ranking sum, rejection sum and valid count of the arrays the region found (the blocks assembled), those arrays are
  the scores, the widened validity bits, the ground-truth scores and a column of ones (the lines before the region),
  and the lines after the region are the first middle and the shared tail of HostSpec.
-/
import proofs.«400832_j962072674814_3_alg».proof.Proof.Gen.KernelIdeal.Frame
import proofs.«400832_j962072674814_3_alg».proof.Proof.HostSpec
import proofs.«400832_j962072674814_3_alg».proof.Proof.KernelHost
import proofs.«400832_j962072674814_3_alg».proof.Proof.KernelHead
import proofs.«400832_j962072674814_3_alg».proof.Proof.KernelBlocks
import Idealize.ShloMosaic.PureOps.Ideal

noncomputable section

namespace Cert.KernelIdeal.Host

open Idealize.ShloMosaic Idealize.ShloMosaic.TcCoe
open Idealize.SL Idealize.SL.Sem
open Cert.KernelIdeal Cert.KernelIdeal.Gen Idealize.ShloMosaic.StableHlo

variable (m : (ℓ : Loc nD τ sig) → Buf (Elt Ideal) ℓ) (ρ : Dev nD → PrngReg) (c : Dev nD)

/-- The column of ones the region contracts against. -/
abbrev onesK : FVec Ideal Cert.HostSpec.S8192x1 .f32 :=
  broadcastInDim S8192x1 ![] bcast_S_S8192x1 (constant (F := Ideal) S_ .f32 0x3F800000#32)

/-- The sample mask, the per-sample ranking loss and the per-sample rejection loss, as functions of the launch arguments. -/
abbrev sokK : IVec Cert.HostSpec.S4096 1 := Cert.HostSpec.sampleOk shK dK (arg1 m c) (arg2 m c)
abbrev rlK : FVec Ideal Cert.HostSpec.S4096 .f32 :=
  Cert.HostSpec.rlA shK
    (Cert.HostSpec.rowRank (arg0 m c) (extui 32 (arg2 m c) natLt_1_32) (Cert.HostSpec.posCol shK dK (arg0 m c) (arg1 m c)) onesK)
    (Cert.HostSpec.rowCnt (extui 32 (arg2 m c) natLt_1_32) onesK)
    (Cert.HostSpec.gtValid shK dK (arg1 m c) (arg2 m c)) (sokK m c)
abbrev rjK : FVec Ideal Cert.HostSpec.S4096 .f32 :=
  Cert.HostSpec.rjA shK
    (Cert.HostSpec.rowRej (arg0 m c) (extui 32 (arg2 m c) natLt_1_32) onesK)
    (Cert.HostSpec.rowCnt (extui 32 (arg2 m c) natLt_1_32) onesK) (sokK m c)

/-- The buffers' contents when the lines after the region start: the region's arrays as the run left them, the rest
    as the lines before the region left them. -/
abbrev afterRegion : Valuation τ sig (Elt Ideal) :=
  Pipeline.withArrays spec0 c (V0 m c) fun w => (dats m 0 c).arrAt w cfg0.N

/-- The region's outputs there. -/
theorem at_out0 : afterRegion m c (Proc.devRef .tc main_v13_0)
    = Cert.HostSpec.rowRank (arg0 m c) (extui 32 (arg2 m c) natLt_1_32) (Cert.HostSpec.posCol shK dK (arg0 m c) (arg1 m c)) onesK := by
  refine (Pipeline.withArrays_arr spec0 winFacts0.arr_inj c _ _ 4).trans ?_
  refine (Cert.KernelIdeal.Blocks.final4 m c).trans ?_
  rw [V_main_arg0 m c, head_v12 m c, head_v10 m c, head_v11 m c]

theorem at_out1 : afterRegion m c (Proc.devRef .tc main_v13_1)
    = Cert.HostSpec.rowRej (arg0 m c) (extui 32 (arg2 m c) natLt_1_32) onesK := by
  refine (Pipeline.withArrays_arr spec0 winFacts0.arr_inj c _ _ 5).trans ?_
  refine (Cert.KernelIdeal.Blocks.final5 m c).trans ?_
  rw [V_main_arg0 m c, head_v12 m c, head_v11 m c]

theorem at_out2 : afterRegion m c (Proc.devRef .tc main_v13_2)
    = Cert.HostSpec.rowCnt (extui 32 (arg2 m c) natLt_1_32) onesK := by
  refine (Pipeline.withArrays_arr spec0 winFacts0.arr_inj c _ _ 6).trans ?_
  refine (Cert.KernelIdeal.Blocks.final6 m c).trans ?_
  rw [head_v12 m c, head_v11 m c]

/-- The two masks the tail reads are no array of the region: they are as the lines before the region left them. -/
theorem at_v8 : afterRegion m c (Proc.devRef .tc main_v8) = Cert.HostSpec.gtValid shK dK (arg1 m c) (arg2 m c) :=
  (Pipeline.withArrays_of_ne _ c (V0 m c) _ main_v8 (by exact (by decide : ∀ w, Pipeline.arrRef spec0 w ≠ main_v8))).trans
    (head_v8 m c)

theorem at_v9 : afterRegion m c (Proc.devRef .tc main_v9) = sokK m c :=
  (Pipeline.withArrays_of_ne _ c (V0 m c) _ main_v9 (by exact (by decide : ∀ w, Pipeline.arrRef spec0 w ≠ main_v9))).trans
    (head_v9 m c)

/-- So the tail's two losses are the functions of the arguments. -/
theorem rlOf_eq : rlOf (afterRegion m c) = rlK m c := by
  unfold rlOf rlK
  rw [at_out0 m c, at_out2 m c, at_v8 m c, at_v9 m c]

theorem rjOf_eq : rjOf (afterRegion m c) = rjK m c := by
  unfold rjOf rjK
  rw [at_out1 m c, at_out2 m c, at_v9 m c]

/-- THE RUN: the three results at the host functions of the arguments, the arguments unchanged. -/
theorem run_value :
    θ_run defs (onTc (τ := τ) (main (F := Ideal))) ⟨m, fun _ => 0, ρ⟩ (fun r => ∀ c : Dev nD,
      r.2.mem ((c.tc : Thread nD τ).loc main_v42) = Cert.HostSpec.total shK (rlK m c) (rjK m c) (sokK m c)
      ∧ r.2.mem ((c.tc : Thread nD τ).loc main_v38) = Cert.HostSpec.meanOver shK (rlK m c) (sokK m c)
      ∧ r.2.mem ((c.tc : Thread nD τ).loc main_v40) = Cert.HostSpec.meanOver shK (rjK m c) (sokK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_, ?_⟩) (run_main m ρ)
  · refine ((h c).2 main_v42 (Pipeline.mem_restRefs_of main_v42 (by decide) (by decide))).trans ?_
    unfold Pipeline.afterTail₀
    refine (tail_v42 (afterRegion m c)).trans ?_
    rw [rlOf_eq m c, rjOf_eq m c, at_v9 m c]
  · refine ((h c).2 main_v38 (Pipeline.mem_restRefs_of main_v38 (by decide) (by decide))).trans ?_
    unfold Pipeline.afterTail₀
    refine (tail_v38 (afterRegion m c)).trans ?_
    rw [rlOf_eq m c, at_v9 m c]
  · refine ((h c).2 main_v40 (Pipeline.mem_restRefs_of main_v40 (by decide) (by decide))).trans ?_
    unfold Pipeline.afterTail₀
    refine (tail_v40 (afterRegion m c)).trans ?_
    rw [rjOf_eq m c, at_v9 m c]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.Host

end
-- ==== Proof.RefRun.lean ====
/-
  The reference program's three results, read back as the host functions of HostSpec.

  The reference computes, from its three arguments, the sample mask, the score at the ground-truth column, the
  per-sample ranking loss over the negatives and the per-sample rejection loss over the valid columns (both with
  integer counts), and returns the ranking mean, the rejection mean, and the ranking mean plus a tenth of the
  rejection mean. Each result's composed term is the corresponding HostSpec function of the arguments: the host
  functions are the same operations composed in the same order, so each equation is the definitions unfolded.
-/
import proofs.«400832_j962072674814_3_alg».proof.Proof.RefRunGen
import proofs.«400832_j962072674814_3_alg».proof.Proof.HostSpec
import Idealize.ShloMosaic.PureOps.Ideal

noncomputable section

namespace Cert.ReferenceIdeal.HostRun

open Idealize.ShloMosaic Idealize.ShloMosaic.TcCoe
open Idealize.SL Idealize.SL.Sem
open Cert.ReferenceIdeal Cert.ReferenceIdeal.Gen

/-- The shape side conditions of the shared host functions, from the reference program's own. -/
theorem shR : Cert.HostSpec.Sh where
  b_4096 := bcast_S_S4096
  b_4096_col := bcast_S4096_S4096x1_0
  b_col := bcast_S_S4096x1
  c_col_cube := shapeCasts_S4096x1_S4096x1x1
  b_cube := bcast_S_S4096x1x1
  b_1_111 := bcast_S1_S1x1x1_2
  b_111_cube := bcast_S1x1x1_S4096x1x1_0_1_2
  r_cube_col := reducesTo_S4096x1x1_S4096x1_d2
  h_S_ := h_S_
  c_col_4096 := shapeCasts_S4096x1_S4096
  r_4096 := reducesTo_S4096_S_d0
  lt_1_32 := natLt_1_32

/-- The shape side conditions of the second middle, from the reference program's own. -/
theorem shBR : Cert.HostSpec.ShB where
  b_8192_row := bcast_S8192_S1x8192_1
  b_row_full := bcast_S1x8192_S4096x8192_0_1
  b_col_full := bcast_S4096x1_S4096x8192_0_1
  b_full := bcast_S_S4096x8192
  r_full_4096 := reducesTo_S4096x8192_S4096_d1

/-- The reference program's row-wise gather record. -/
abbrev dR : GatherDims Cert.HostSpec.S4096x8192 Cert.HostSpec.S4096x1x1 Cert.HostSpec.S4096x1 :=
  gather_S4096x8192_S4096x1x1_S4096x1_n_1_0_0_1_2_11

section Results

variable (m : (ℓ : Loc nD τ sig) → Buf (Elt Ideal) ℓ) (c : Dev nD)

/-- The scores, the ground-truth indices and the validity bits as launched. -/
abbrev arg0 : FVec Ideal Cert.HostSpec.S4096x8192 .f32 := m ((c.tc : Thread nD τ).loc main_arg0)
abbrev arg1 : IVec Cert.HostSpec.S4096 32 := m ((c.tc : Thread nD τ).loc main_arg1)
abbrev arg2 : IVec Cert.HostSpec.S4096x8192 1 := m ((c.tc : Thread nD τ).loc main_arg2)

/-- The sample mask of the launched arguments. -/
abbrev sok : IVec Cert.HostSpec.S4096 1 := Cert.HostSpec.sampleOk shR dR (arg1 m c) (arg2 m c)

/-- The per-sample ranking loss: the mean of the ranking terms over the negatives. -/
abbrev rl : FVec Ideal Cert.HostSpec.S4096 .f32 :=
  Cert.HostSpec.rlB shR shBR (Cert.HostSpec.posCol shR dR (arg0 m c) (arg1 m c)) (arg0 m c) (arg1 m c) (arg2 m c) (sok m c)

/-- The per-sample rejection loss: the mean of the rejection terms over the valid columns. -/
abbrev rj : FVec Ideal Cert.HostSpec.S4096 .f32 := Cert.HostSpec.rjB shR shBR (arg0 m c) (arg2 m c) (sok m c)

set_option maxHeartbeats 4000000 in
set_option maxRecDepth 16384 in
/-- The first result: the ranking mean plus a tenth of the rejection mean. -/
theorem res58_eq :
    Cert.ReferenceIdeal.Value.res_main_v58 (F := Ideal) m c = Cert.HostSpec.total shR (rl m c) (rj m c) (sok m c) := by
  unfold Cert.ReferenceIdeal.Value.res_main_v58
  rfl

set_option maxHeartbeats 4000000 in
set_option maxRecDepth 16384 in
/-- The second result: the ranking mean. -/
theorem res54_eq :
    Cert.ReferenceIdeal.Value.res_main_v54 (F := Ideal) m c = Cert.HostSpec.meanOver shR (rl m c) (sok m c) := by
  unfold Cert.ReferenceIdeal.Value.res_main_v54
  rfl

set_option maxHeartbeats 4000000 in
set_option maxRecDepth 16384 in
/-- The third result: the rejection mean. -/
theorem res56_eq :
    Cert.ReferenceIdeal.Value.res_main_v56 (F := Ideal) m c = Cert.HostSpec.meanOver shR (rj m c) (sok m c) := by
  unfold Cert.ReferenceIdeal.Value.res_main_v56
  rfl

end Results

end Cert.ReferenceIdeal.HostRun

end
-- ==== Proof.Words.lean ====
import Idealize.ShloMosaic.PureOps.Ideal
import Idealize.ShloMosaic.PureOps.Reduce
import Idealize.ShloMosaic.PureOps.Contract
import Idealize.ShloMosaic.Lib.ValueIdx
import Idealize.ShloMosaic.Lib.StableHlo.Predicate

noncomputable section

namespace Cert.Words

open Idealize.ShloMosaic Idealize.ShloMosaic.ValueIdx
open Idealize.ShloMosaic.StableHlo.Predicate

/-- Clamping any 32-bit word into [0, 8191] (signed maximum with 0, then signed minimum with 8191) gives a word whose
    value is below 8192. -/
theorem clip_lt (w : BitVec 32) : (IntOp.minsi 8191#32 (IntOp.maxsi 0#32 w)).toNat < 8192 := by
  have h0 : (0#32 : BitVec 32).toInt = 0 := by decide
  have h8 : (8191#32 : BitVec 32).toInt = 8191 := by decide
  -- the inner maximum is a non-negative word: it reads the same signed and unsigned
  have hm : (IntOp.maxsi 0#32 w).toInt = ((IntOp.maxsi 0#32 w).toNat : Int) := by
    unfold IntOp.maxsi
    split <;> rename_i hc <;> simp only [BitVec.slt, h0, decide_eq_true_eq] at hc
    · rfl
    · rw [BitVec.toInt_eq_toNat_cond]
      rw [BitVec.toInt_eq_toNat_cond] at hc
      split <;> rename_i h2
      · rfl
      · rw [if_neg h2] at hc; have := w.isLt; omega
  unfold IntOp.minsi
  split <;> rename_i hc <;> simp only [BitVec.slt, h8, hm, decide_eq_true_eq] at hc
  · decide
  · omega

/-- A word in [0, 8192) is not negative, so the wrap of a negative index (add 8192 when below 0) leaves it alone. -/
theorem wrap_id (c : BitVec 32) (h : c.toNat < 8192) :
    Scalar.select (IntOp.cmpi .slt c 0#32) (IntOp.addi c 8192#32) c = c := by
  have hc : IntOp.cmpi .slt c 0#32 = 0#1 := by
    apply eq_zero_of_ne_one
    rw [slt_iff_toNat (by omega) (by decide)]
    simp
  rw [hc, select_zero]

/-- A word in [0, 8192) passes the bounds test 0 ≤ c ∧ c ≤ 8191. -/
theorem inb_one (c : BitVec 32) (h : c.toNat < 8192) :
    IntOp.andi (IntOp.cmpi .sge c 0#32) (IntOp.cmpi .sle c 8191#32) = 1#1 := by
  have h1 : IntOp.cmpi .sge c 0#32 = 1#1 := (sge_iff_toNat (by omega) (by decide)).2 (by simp)
  have h2 : IntOp.cmpi .sle c 8191#32 = 1#1 :=
    (sle_iff_toNat (by omega) (by decide)).2 (by simp only [BitVec.toNat_ofNat]; omega)
  rw [h1, h2]; rfl

/-- At an index whose reduced axis has extent one, the conjunction over that axis is the initial bit and the one entry. -/
theorem reduce_andi_unit {N : Nat} (x : IVec ⟨3, ![N, 1, 1]⟩ 1) (init : IVec ⟨0, ![]⟩ 1)
    (h : (⟨3, ![N, 1, 1]⟩ : Shape).ReducesTo [2] ⟨2, ![N, 1]⟩) (hu : 0 < (⟨0, ![]⟩ : Shape).numel)
    (b : Fin N) (u : Fin 1) :
    Host.reduce IntOp.andi x init h hu (ix2 b u) = IntOp.andi (init ix0) (x (ix3 b u (0 : Fin 1))) := by
  rw [Host.reduce_eq_fold]
  -- exactly one source index drops to (b, u): the one with third coordinate 0
  have hset : (Finset.univ.filter fun i : (⟨3, ![N, 1, 1]⟩ : Shape).Idx => h.drop i = ix2 b u)
      = {ix3 b u (0 : Fin 1)} := by
    ext i
    simp only [Finset.mem_filter, Finset.mem_univ, true_and, Finset.mem_singleton]
    constructor
    · intro e
      have h0 : (h.drop i 0 : Nat) = i 0 := Shape.ReducesTo.drop_apply_val h i 0
      rw [e] at h0
      funext a
      match a with
      | ⟨0, _⟩ => exact Fin.ext h0.symm
      | ⟨1, _⟩ =>
        have l1 : (i 1).val < 1 := (i 1).isLt
        have l2 : u.val < 1 := u.isLt
        exact Fin.ext (by show (i 1).val = u.val; omega)
      | ⟨2, _⟩ =>
        have l1 : (i 2).val < 1 := (i 2).isLt
        exact Fin.ext (by show (i 2).val = 0; omega)
    · rintro rfl
      funext a
      match a with
      | ⟨0, _⟩ => exact Fin.ext (Shape.ReducesTo.drop_apply_val h _ 0)
      | ⟨1, _⟩ => exact Fin.ext (Shape.ReducesTo.drop_apply_val h _ 1)
  rw [hset, Finset.fold_singleton, eq_ix0 (Shape.Idx.first hu)]
  exact BitVec.and_comm _ _

/-- For a position j below 8192 and a word c below 8192, the words differ exactly when the numbers differ. -/
theorem ne_iota_iff (j : Fin 8192) (c : BitVec 32) (h : c.toNat < 8192) :
    IntOp.cmpi .ne (BitVec.ofNat 32 j.val) c = 1#1 ↔ j.val ≠ c.toNat := by
  have hj := j.isLt
  unfold IntOp.cmpi
  rw [ofBool_eq_one_iff]
  simp only [bne_iff_ne, ne_eq]
  constructor
  · intro hne he
    apply hne
    apply BitVec.eq_of_toNat_eq
    rw [BitVec.toNat_ofNat, ← he]
    exact Nat.mod_eq_of_lt (by omega)
  · intro hne he
    apply hne
    have := congrArg BitVec.toNat he
    rw [BitVec.toNat_ofNat, Nat.mod_eq_of_lt (by omega)] at this
    exact this

/-- A count n ≤ 8192, raised to at least 1 as a signed word and read as a real, is max(n, 1). -/
theorem sitofp_maxsi_one (n : BitVec 32) (h : n.toNat ≤ 8192) :
    (((IntOp.maxsi n 1#32).toInt : ℝ) : EReal) = max (((n.toNat : ℕ) : ℝ) : EReal) 1 := by
  have hn : n.toInt = n.toNat := toInt_eq_toNat_of_lt (by omega)
  have h1 : (1#32 : BitVec 32).toInt = 1 := by decide
  unfold IntOp.maxsi
  split <;> rename_i hc <;> simp only [BitVec.slt, hn, h1, decide_eq_true_eq] at hc
  · have hle : (1 : EReal) ≤ (((n.toNat : ℕ) : ℝ) : EReal) := by
      have : (1 : ℝ) ≤ ((n.toNat : ℕ) : ℝ) := by exact_mod_cast (by omega : 1 ≤ n.toNat)
      exact_mod_cast this
    rw [hn, max_eq_left hle]
    norm_cast
  · have hle : (((n.toNat : ℕ) : ℝ) : EReal) ≤ 1 := by
      have : ((n.toNat : ℕ) : ℝ) ≤ (1 : ℝ) := by exact_mod_cast (by omega : n.toNat ≤ 1)
      exact_mod_cast this
    rw [h1, max_eq_right hle]
    norm_cast

/-- A count n ≤ 8192 is greater than 0 as a signed word exactly when the number is positive. -/
theorem sgt_zero_iff (n : BitVec 32) (h : n.toNat ≤ 8192) : IntOp.cmpi .sgt n 0#32 = 1#1 ↔ 0 < n.toNat := by
  rw [sgt_iff_toNat (by omega) (by decide)]
  simp

/-- A bit read as an unsigned number is 1 when set and 0 when clear. -/
theorem uitofp_bit (b : BitVec 1) : (((b.toNat : ℕ) : ℝ) : EReal) = if b = 1#1 then 1 else 0 := by
  rcases BitVec.eq_zero_or_eq_one b with rfl | rfl <;> simp

/-- A bit zero-extended to 32 bits and read as a signed number is 1 when set and 0 when clear. -/
theorem sitofp_ext_bit (b : BitVec 1) : ((((b.setWidth 32).toInt : ℤ) : ℝ) : EReal) = if b = 1#1 then 1 else 0 := by
  rcases BitVec.eq_zero_or_eq_one b with rfl | rfl
  · have e : ((0#1 : BitVec 1).setWidth 32).toInt = 0 := by decide
    rw [e]; simp
  · have e : ((1#1 : BitVec 1).setWidth 32).toInt = 1 := by decide
    rw [e]; simp

/-- Testing a zero-extended bit against zero gives the bit back. -/
theorem ne_zero_ext (b : BitVec 1) : IntOp.cmpi .ne (b.setWidth 32) 0#32 = b := by
  rcases BitVec.eq_zero_or_eq_one b with rfl | rfl <;> decide

/-- The and of two bits is 1 exactly when both are 1. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

end Cert.Words

end
-- ==== Proof.RowAlgebra.lean ====
import Idealize.ShloMosaic.PureOps.Ideal
import Idealize.ShloMosaic.PureOps.Ideal.Laws
import Mathlib.Data.EReal.Basic
import Mathlib.Data.EReal.Operations
import Mathlib.Algebra.BigOperators.Group.Finset.Basic
import Mathlib.Algebra.BigOperators.Group.Finset.Piecewise
import Mathlib.Algebra.BigOperators.Ring.Finset
import Mathlib.Order.MinMax

noncomputable section

open Idealize.ShloMosaic

namespace Cert.RowAlgebra

variable {n : ℕ}

/-- The coercion of the reals into the extended reals commutes with finite sums. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The coercion is monotone, so it commutes with `max`. -/
theorem coe_max (x y : ℝ) : ((max x y : ℝ) : EReal) = max (x : EReal) (y : EReal) :=
  EReal.coe_strictMono.monotone.map_max

/-- In the reals: the sum of `a` over the valid columns, less the term of column `g` when it is valid, is the sum
    of `a` over the valid columns other than `g`. -/
theorem real_split (a : Fin n → ℝ) (v : Fin n → Prop) [DecidablePred v] (g : Fin n) :
    (∑ k, (if v k then a k else 0)) - (if v g then a g else 0)
      = ∑ k, a k * (if v k ∧ k ≠ g then 1 else 0) := by
  have hδ : (if v g then a g else 0) = ∑ k, (if k = g then (if v g then a g else 0) else 0) := by
    rw [Finset.sum_ite_eq' Finset.univ g]; simp
  rw [hδ, ← Finset.sum_sub_distrib]
  refine Finset.sum_congr rfl fun k _ => ?_
  by_cases hk : k = g
  · subst hk; simp
  · simp [hk]

/-- A sum of coerced reals weighted by an indicator is the coercion of the real weighted sum. -/
theorem coe_sum_mul_ind (a : Fin n → ℝ) (p : Fin n → Prop) [DecidablePred p] :
    (0 : EReal) + ∑ k, (a k : EReal) * (if p k then (1 : EReal) else 0)
      = ((∑ k, a k * (if p k then 1 else 0) : ℝ) : EReal) := by
  rw [zero_add, coe_sum]
  refine Finset.sum_congr rfl fun k _ => ?_
  rw [EReal.coe_mul]
  split_ifs <;> simp

/-- A sum of coerced reals switched by an indicator is the coercion of the real switched sum. -/
theorem coe_sum_ite (a : Fin n → ℝ) (p : Fin n → Prop) [DecidablePred p] :
    ∑ k, (if p k then (a k : EReal) else 0) * (1 : EReal)
      = ((∑ k, (if p k then a k else 0) : ℝ) : EReal) := by
  rw [coe_sum]
  refine Finset.sum_congr rfl fun k _ => ?_
  rw [mul_one]
  split_ifs <;> rfl

/-- The ranking sum. Summed over all valid columns and corrected by the ground-truth column's own term — which is
    exactly `M`, since there the score difference is `0` and `max (M - 0) 0 = M` as `0 ≤ M` — it is the sum over
    the valid columns other than the ground truth. Every term is a real, so the identity is `real_split` coerced. -/
theorem rank_split (s : Fin n → ℝ) (v : Fin n → Prop) [DecidablePred v] (g : Fin n) (M : ℝ) (hM : 0 ≤ M) :
    (∑ k, (if v k then max ((M : EReal) - ((s g : EReal) - (s k : EReal))) 0 else 0) * (1 : EReal))
        - (M : EReal) * (if v g then 1 else 0)
      = 0 + ∑ k, max ((M : EReal) - ((s g : EReal) - (s k : EReal))) 0
          * (if v k ∧ k ≠ g then (1 : EReal) else 0) := by
  have ha : ∀ k, max ((M : EReal) - ((s g : EReal) - (s k : EReal))) 0
      = ((max (M - (s g - s k)) 0 : ℝ) : EReal) := by
    intro k
    rw [coe_max, EReal.coe_sub, EReal.coe_sub, EReal.coe_zero]
  have hg : (M : EReal) * (if v g then 1 else 0)
      = ((if v g then max (M - (s g - s g)) 0 else 0 : ℝ) : EReal) := by
    rw [sub_self, sub_zero, max_eq_left hM]
    split_ifs <;> simp
  simp only [ha]
  rw [hg, coe_sum_ite (fun k => max (M - (s g - s k)) 0) v,
    coe_sum_mul_ind (fun k => max (M - (s g - s k)) 0) (fun k => v k ∧ k ≠ g), ← EReal.coe_sub,
    real_split (fun k => max (M - (s g - s k)) 0) v g]

/-- The count of valid columns, less one when the ground truth is valid, is the number of valid columns other than the
    ground truth. -/
theorem count_split (v : Fin n → Prop) [DecidablePred v] (g : Fin n) :
    (∑ k, (if v k then (1 : EReal) else 0) * (1 : EReal)) - (if v g then 1 else 0)
      = ((((Finset.univ.filter fun k => v k ∧ k ≠ g).card : ℕ) : ℝ) : EReal) := by
  have hg : (if v g then 1 else 0 : EReal) = ((if v g then (1 : ℝ) else 0 : ℝ) : EReal) := by
    split_ifs <;> rfl
  have h1 := coe_sum_ite (fun _ : Fin n => (1 : ℝ)) v
  rw [EReal.coe_one] at h1
  rw [hg, h1, ← EReal.coe_sub, real_split (fun _ => (1 : ℝ)) v g]
  simp only [one_mul, Finset.sum_boole]

/-- The rejection sum: switching each term by validity is weighting it by validity's indicator. -/
theorem rej_eq (s : Fin n → ℝ) (v : Fin n → Prop) [DecidablePred v] :
    ∑ k, (if v k then max ((0 : EReal) - (s k : EReal)) 0 else 0) * (1 : EReal)
      = 0 + ∑ k, max (-(s k : EReal)) 0 * (if v k then (1 : EReal) else 0) := by
  have ha : ∀ k, max ((0 : EReal) - (s k : EReal)) 0 = ((max (-(s k)) 0 : ℝ) : EReal) := by
    intro k
    rw [coe_max, EReal.coe_neg, EReal.coe_zero, zero_sub]
  have hb : ∀ k, max (-(s k : EReal)) 0 = ((max (-(s k)) 0 : ℝ) : EReal) := by
    intro k
    rw [coe_max, EReal.coe_neg, EReal.coe_zero]
  simp only [ha, hb]
  rw [coe_sum_ite (fun k => max (-(s k)) 0) v, coe_sum_mul_ind (fun k => max (-(s k)) 0) v]
  congr 1
  refine Finset.sum_congr rfl fun k _ => ?_
  split_ifs <;> simp

/-- The count of valid columns is the cardinality of the set of valid columns. -/
theorem count_eq (v : Fin n → Prop) [DecidablePred v] :
    ∑ k, (if v k then (1 : EReal) else 0) * (1 : EReal)
      = ((((Finset.univ.filter fun k => v k).card : ℕ) : ℝ) : EReal) := by
  have h1 := coe_sum_ite (fun _ : Fin n => (1 : ℝ)) v
  rw [EReal.coe_one] at h1
  rw [h1, Finset.sum_boole]

/-- The strict comparison of a coerced natural number with zero reads `1` exactly when the number is positive. -/
theorem cmp_ogt_nat (k : ℕ) : Ideal.cmp .ogt (((k : ℕ) : ℝ) : EReal) 0 = 1#1 ↔ 0 < k := by
  by_cases hk : 0 < k
  · simp [Ideal.cmp, hk]
  · simp [Ideal.cmp, hk]

/-- The margin's bit pattern has sign `0`, exponent field `124` and fraction field `5033165`: it denotes the finite
    nonnegative dyadic `(2 ^ 23 + 5033165) · 2 ^ (124 - 127 - 23) = 13421773 / 2 ^ 26`. -/
theorem margin_real : ∃ m : ℝ, 0 ≤ m ∧ Ideal.ofBits .f32 0x3E4CCCCD#32 = (m : EReal) := by
  have h : Ideal.ofBits .f32 0x3E4CCCCD#32 = ((13421773 * (2 ^ 26)⁻¹ : ℝ) : EReal) := by
    simp [Ideal.ofBits, Ideal.ieee]
  exact ⟨13421773 * (2 ^ 26)⁻¹, by positivity, h⟩

/-- The pattern with exponent field `127` and fraction `0` denotes `2 ^ 23 · 2 ^ (127 - 127 - 23) = 1`. -/
theorem one_real : Ideal.ofBits .f32 0x3F800000#32 = (1 : EReal) := by
  have h : Ideal.ofBits .f32 0x3F800000#32 = ((8388608 * (2 ^ 23)⁻¹ : ℝ) : EReal) := by
    simp [Ideal.ofBits, Ideal.ieee]
  rw [h, ← EReal.coe_one]
  congr 1
  norm_num

/-- The all-zero pattern denotes `0`. -/
theorem zero_real : Ideal.ofBits .f32 0x00000000#32 = (0 : EReal) := Ideal.ofBits_zero_f32

end Cert.RowAlgebra
-- ==== Proof.Rows.lean ====
import proofs.«400832_j962072674814_3_alg».proof.Proof.HostSpec
import proofs.«400832_j962072674814_3_alg».proof.Proof.Words
import proofs.«400832_j962072674814_3_alg».proof.Proof.RowAlgebra
import Idealize.ShloMosaic.Lib.ValueIdx
import Idealize.ShloMosaic.Lib.Pipeline.Value
import Idealize.ShloMosaic.PureOps.Ideal.Laws
import Idealize.ShloMosaic.Lib.StableHlo.Predicate

noncomputable section

namespace Cert.Rows

open Idealize.ShloMosaic Idealize.ShloMosaic.ValueIdx
open Cert.HostSpec

/-! ## Scalar broadcasts read at an index -/

/-- A scalar broadcast to any shape reads the scalar's one element everywhere. -/
theorem bcast0_apply {α : Type} {t : Shape} (h : S_.BroadcastsInDim t (![] : Fin 0 → Fin t.rank)) (v : S_.Idx → α)
    (j : t.Idx) : broadcastInDim t ![] h v j = v ix0 := by
  unfold broadcastInDim
  exact congrArg v (funext fun a => a.elim0)

/-- A broadcast float constant reads the value its pattern denotes. -/
theorem bcast_const {t : Shape} (h : S_.BroadcastsInDim t (![] : Fin 0 → Fin t.rank)) (w : BitVec 32) (j : t.Idx) :
    broadcastInDim t ![] h (constant (F := Ideal) S_ .f32 w) j = Ideal.ofBits .f32 w :=
  bcast0_apply h _ j

/-- The same through an identity. -/
theorem bcast_const_id {t : Shape} (h : S_.BroadcastsInDim t (![] : Fin 0 → Fin t.rank)) (w : BitVec 32) (j : t.Idx) :
    broadcastInDim t ![] h (id (constant (F := Ideal) S_ .f32 w)) j = Ideal.ofBits .f32 w :=
  bcast0_apply h _ j

/-- A broadcast integer constant reads the word. -/
theorem bcast_constI {t : Shape} {n : Nat} (h : S_.BroadcastsInDim t (![] : Fin 0 → Fin t.rank)) (w : BitVec n)
    (j : t.Idx) : broadcastInDim t ![] h (constantI S_ n w) j = w :=
  bcast0_apply h _ j

/-- The same through an identity. -/
theorem bcast_constI_id {t : Shape} {n : Nat} (h : S_.BroadcastsInDim t (![] : Fin 0 → Fin t.rank)) (w : BitVec n)
    (j : t.Idx) : broadcastInDim t ![] h (id (constantI S_ n w)) j = w :=
  bcast0_apply h _ j

/-- The same at the shapes met below, with every shape literal. -/
theorem bcast_const_row (h : S_.BroadcastsInDim S4096 (![] : Fin 0 → Fin S4096.rank)) (w : BitVec 32) (b : Fin 4096) :
    broadcastInDim S4096 ![] h (constant (F := Ideal) S_ .f32 w) (ix1 b) = Ideal.ofBits .f32 w :=
  bcast0_apply h _ _

theorem bcast_const_id_row (h : S_.BroadcastsInDim S4096 (![] : Fin 0 → Fin S4096.rank)) (w : BitVec 32) (b : Fin 4096) :
    broadcastInDim S4096 ![] h (id (constant (F := Ideal) S_ .f32 w)) (ix1 b) = Ideal.ofBits .f32 w :=
  bcast0_apply h _ _

theorem bcast_constI_row {n : Nat} (h : S_.BroadcastsInDim S4096 (![] : Fin 0 → Fin S4096.rank)) (w : BitVec n)
    (b : Fin 4096) : broadcastInDim S4096 ![] h (constantI S_ n w) (ix1 b) = w :=
  bcast0_apply h _ _

theorem bcast_constI_id_row {n : Nat} (h : S_.BroadcastsInDim S4096 (![] : Fin 0 → Fin S4096.rank)) (w : BitVec n)
    (b : Fin 4096) : broadcastInDim S4096 ![] h (id (constantI S_ n w)) (ix1 b) = w :=
  bcast0_apply h _ _

theorem bcast_const_full (h : S_.BroadcastsInDim S4096x8192 (![] : Fin 0 → Fin S4096x8192.rank)) (w : BitVec 32)
    (b : Fin 4096) (k : Fin 8192) :
    broadcastInDim S4096x8192 ![] h (constant (F := Ideal) S_ .f32 w) (ix2 b k) = Ideal.ofBits .f32 w :=
  bcast0_apply h _ _

theorem bcast_constI_full {n : Nat} (h : S_.BroadcastsInDim S4096x8192 (![] : Fin 0 → Fin S4096x8192.rank))
    (w : BitVec n) (b : Fin 4096) (k : Fin 8192) :
    broadcastInDim S4096x8192 ![] h (constantI S_ n w) (ix2 b k) = w :=
  bcast0_apply h _ _

/-! ## The column of ones -/

/-- The [8192, 1] column every per-row sum is contracted against: the pattern of `1.0` broadcast. -/
def ones (h1 : S_.BroadcastsInDim S8192x1 (![] : Fin 0 → Fin S8192x1.rank)) : FVec Ideal S8192x1 .f32 :=
  broadcastInDim S8192x1 ![] h1 (constant S_ .f32 0x3F800000#32)

/-- Every entry of that column is `1`. -/
theorem ones_apply (h1 : S_.BroadcastsInDim S8192x1 (![] : Fin 0 → Fin S8192x1.rank)) (k : Fin 8192) :
    ones h1 (ix2 k (0 : Fin 1)) = (1 : EReal) := by
  unfold ones
  rw [bcast_const]
  exact RowAlgebra.one_real

/-! ## The three per-row sums at one row, over the validity bits -/

/-- Row `b`'s count: the sum over the columns of the validity bit as a number. -/
theorem rowCnt_apply (a2 : IVec S4096x8192 1) (hlt : 1 < 32)
    (h1 : S_.BroadcastsInDim S8192x1 (![] : Fin 0 → Fin S8192x1.rank)) (b : Fin 4096) (u : Fin 1) :
    rowCnt (extui 32 a2 hlt) (ones h1) (ix2 b u)
      = ∑ k : Fin 8192, (if a2 (ix2 b k) = 1#1 then (1 : EReal) else 0) * (1 : EReal) := by
  show (∑ k : Fin 8192, (((((IntOp.cmpi .ne ((a2 (ix2 b k)).setWidth 32) 0#32).setWidth 32).toInt : ℤ) : ℝ) : EReal)
    * ones h1 (ix2 k (0 : Fin 1))) = _
  refine Finset.sum_congr rfl fun k _ => ?_
  rw [ones_apply, Words.ne_zero_ext, Words.sitofp_ext_bit]

/-- Row `b`'s ranking sum: over the valid columns, the hinge of the margin against the score difference. -/
theorem rowRank_apply (a0 : FVec Ideal S4096x8192 .f32) (a2 : IVec S4096x8192 1) (hlt : 1 < 32)
    (pos : FVec Ideal S4096x1 .f32) (h1 : S_.BroadcastsInDim S8192x1 (![] : Fin 0 → Fin S8192x1.rank))
    (b : Fin 4096) (u : Fin 1) :
    rowRank a0 (extui 32 a2 hlt) pos (ones h1) (ix2 b u)
      = ∑ k : Fin 8192, (if a2 (ix2 b k) = 1#1
          then max (Ideal.ofBits .f32 0x3E4CCCCD#32 - (pos (ix2 b (0 : Fin 1)) - a0 (ix2 b k))) 0 else 0) * (1 : EReal) := by
  show (∑ k : Fin 8192, Scalar.select (IntOp.cmpi .ne ((a2 (ix2 b k)).setWidth 32) 0#32)
      (max (Ideal.ofBits .f32 0x3E4CCCCD#32 - (pos (ix2 b (0 : Fin 1)) - a0 (ix2 b k))) 0) 0
    * ones h1 (ix2 k (0 : Fin 1))) = _
  refine Finset.sum_congr rfl fun k _ => ?_
  rw [ones_apply, Words.ne_zero_ext]
  rfl

/-- Row `b`'s rejection sum: over the valid columns, the positive part of the negated score. -/
theorem rowRej_apply (a0 : FVec Ideal S4096x8192 .f32) (a2 : IVec S4096x8192 1) (hlt : 1 < 32)
    (h1 : S_.BroadcastsInDim S8192x1 (![] : Fin 0 → Fin S8192x1.rank)) (b : Fin 4096) (u : Fin 1) :
    rowRej a0 (extui 32 a2 hlt) (ones h1) (ix2 b u)
      = ∑ k : Fin 8192, (if a2 (ix2 b k) = 1#1 then max (0 - a0 (ix2 b k)) 0 else 0) * (1 : EReal) := by
  show (∑ k : Fin 8192, Scalar.select (IntOp.cmpi .ne ((a2 (ix2 b k)).setWidth 32) 0#32)
      (max (0 - a0 (ix2 b k)) 0) 0 * ones h1 (ix2 k (0 : Fin 1))) = _
  refine Finset.sum_congr rfl fun k _ => ?_
  rw [ones_apply, Words.ne_zero_ext]
  rfl

/-! ## Shape casts and reductions at one row -/

/-- A [4096, 1] column cast to a [4096] vector reads, at `b`, the column's entry of row `b`. -/
theorem colVec_apply {α : Type} (col : S4096x1.Idx → α) (h : S4096x1.ShapeCasts S4096) (b : Fin 4096) :
    shapeCast S4096 col h (ix1 b) = col (ix2 b (0 : Fin 1)) := by
  apply shapeCast_apply
  rw [Shape.rowMajor_val_two, Shape.rowMajor_val_one]
  show b.val * 1 + 0 = b.val
  omega

/-- The host's sum along the rows of a [4096, 8192] array reads, at `b`, the initial `0` plus the sum of row `b`. -/
theorem reduceAdd_row (x : FVec Ideal S4096x8192 .f32) (h' : S4096x8192.ReducesTo [1] S4096) (hu : 0 < S_.numel)
    (b : Fin 4096) :
    Host.reduceAdd x (constant S_ .f32 0x00000000#32) h' hu (ix1 b) = 0 + ∑ k : Fin 8192, x (ix2 b k) := by
  have hr : S4096x8192.Reduces [1] S4096 := by decide
  show Ideal.hostReduceAdd h' x (Ideal.ofBits .f32 0x00000000#32) (ix1 b) = _
  rw [Ideal.hostReduceAdd_single h' hr, Ideal.ofBits_zero_f32]
  show (0 : EReal) + ∑ k : Fin 8192, x (hr.lift (ix1 b) k) = _
  congr 1
  refine Finset.sum_congr rfl fun k _ => ?_
  congr 1
  funext a
  match a with
  | ⟨0, _⟩ => rfl
  | ⟨1, _⟩ => rfl

/-- A [4096, 1] column broadcast along the rows of a [4096, 8192] array reads, at `(b, k)`, the column's entry of
    row `b`. -/
theorem bcast_col_full (h : S4096x1.BroadcastsInDim S4096x8192 (![0, 1] : Fin 2 → Fin S4096x8192.rank)) {α : Type}
    (col : S4096x1.Idx → α) (b : Fin 4096) (k : Fin 8192) :
    broadcastInDim S4096x8192 ![0, 1] h col (ix2 b k) = col (ix2 b (0 : Fin 1)) := by
  apply broadcastInDim_apply
  intro a
  match a with
  | ⟨0, _⟩ => rfl
  | ⟨1, _⟩ => rfl

/-! ## The two middles at one row

A scalar constant broadcast and read at an index is the constant's value by unfolding alone, so each statement below
is first restated with the constants' values in place; what is left to rewrite are the shape casts of the columns, the
row sums, and the patterns of `0` and `1`. -/

/-- The first middle's ranking loss at row `b`, in its scalars: the per-row sums' entries, the ground-truth validity bit
    as a number, the margin's pattern. -/
theorem rlA_apply (sh : Sh) (R0 R2 : FVec Ideal S4096x1 .f32) (gtv sok : IVec S4096 1) (b : Fin 4096) :
    rlA sh R0 R2 gtv sok (ix1 b)
      = Scalar.select
          (IntOp.andi (sok (ix1 b))
            (Ideal.cmp .ogt (R2 (ix2 b (0 : Fin 1)) - ((((gtv (ix1 b)).toNat : ℕ) : ℝ) : EReal)) 0))
          (Ideal.div
            (R0 (ix2 b (0 : Fin 1))
              - Ideal.ofBits .f32 0x3E4CCCCD#32 * ((((gtv (ix1 b)).toNat : ℕ) : ℝ) : EReal))
            (max (R2 (ix2 b (0 : Fin 1)) - ((((gtv (ix1 b)).toNat : ℕ) : ℝ) : EReal)) 1))
          0 := by
  show Scalar.select
      (IntOp.andi (sok (ix1 b))
        (Ideal.cmp .ogt (shapeCast S4096 R2 sh.c_col_4096 (ix1 b) - ((((gtv (ix1 b)).toNat : ℕ) : ℝ) : EReal))
          (Ideal.ofBits .f32 0x00000000#32)))
      (Ideal.div
        (shapeCast S4096 R0 sh.c_col_4096 (ix1 b)
          - Ideal.ofBits .f32 0x3E4CCCCD#32 * ((((gtv (ix1 b)).toNat : ℕ) : ℝ) : EReal))
        (max (shapeCast S4096 R2 sh.c_col_4096 (ix1 b) - ((((gtv (ix1 b)).toNat : ℕ) : ℝ) : EReal))
          (Ideal.ofBits .f32 0x3F800000#32)))
      (Ideal.ofBits .f32 0x00000000#32) = _
  rw [colVec_apply, colVec_apply, RowAlgebra.zero_real, RowAlgebra.one_real]

/-- The first middle's rejection loss at row `b`. -/
theorem rjA_apply (sh : Sh) (R1 R2 : FVec Ideal S4096x1 .f32) (sok : IVec S4096 1) (b : Fin 4096) :
    rjA sh R1 R2 sok (ix1 b)
      = Scalar.select (sok (ix1 b))
          (Ideal.div (R1 (ix2 b (0 : Fin 1))) (max (R2 (ix2 b (0 : Fin 1))) 1)) 0 := by
  show Scalar.select (sok (ix1 b))
      (Ideal.div (shapeCast S4096 R1 sh.c_col_4096 (ix1 b))
        (max (shapeCast S4096 R2 sh.c_col_4096 (ix1 b)) (Ideal.ofBits .f32 0x3F800000#32)))
      (Ideal.ofBits .f32 0x00000000#32) = _
  rw [colVec_apply, colVec_apply, RowAlgebra.zero_real, RowAlgebra.one_real]

/-- One ranking term of the second middle at `(b, k)`. -/
theorem rankTerms_apply (sh : Sh) (shB : ShB) (pos : FVec Ideal S4096x1 .f32) (a0 : FVec Ideal S4096x8192 .f32)
    (a1 : IVec S4096 32) (a2 : IVec S4096x8192 1) (b : Fin 4096) (k : Fin 8192) :
    rankTerms sh shB pos a0 a1 a2 (ix2 b k)
      = max (Ideal.ofBits .f32 0x3E4CCCCD#32 - (pos (ix2 b (0 : Fin 1)) - a0 (ix2 b k))) 0
          * ((((negMask sh shB a1 a2 (ix2 b k)).toNat : ℕ) : ℝ) : EReal) := by
  show max (Ideal.ofBits .f32 0x3E4CCCCD#32
        - (broadcastInDim S4096x8192 ![0, 1] shB.b_col_full pos (ix2 b k) - a0 (ix2 b k)))
      (Ideal.ofBits .f32 0x00000000#32)
    * ((((negMask sh shB a1 a2 (ix2 b k)).toNat : ℕ) : ℝ) : EReal) = _
  rw [bcast_col_full, RowAlgebra.zero_real]

/-- The second middle's ranking loss at row `b`: the sum of the hinge terms weighted by the negatives' bits as numbers,
    over the count of negatives raised to one. -/
theorem rlB_apply (sh : Sh) (shB : ShB) (pos : FVec Ideal S4096x1 .f32) (a0 : FVec Ideal S4096x8192 .f32)
    (a1 : IVec S4096 32) (a2 : IVec S4096x8192 1) (sok : IVec S4096 1) (b : Fin 4096) :
    rlB sh shB pos a0 a1 a2 sok (ix1 b)
      = Scalar.select
          (IntOp.andi (sok (ix1 b)) (IntOp.cmpi .sgt (negCnt sh shB a1 a2 (ix1 b)) 0#32))
          (Ideal.div
            (0 + ∑ k : Fin 8192,
              max (Ideal.ofBits .f32 0x3E4CCCCD#32 - (pos (ix2 b (0 : Fin 1)) - a0 (ix2 b k))) 0
                * ((((negMask sh shB a1 a2 (ix2 b k)).toNat : ℕ) : ℝ) : EReal))
            ((((IntOp.maxsi (negCnt sh shB a1 a2 (ix1 b)) 1#32).toInt : ℤ) : ℝ) : EReal))
          0 := by
  show Scalar.select
      (IntOp.andi (sok (ix1 b)) (IntOp.cmpi .sgt (negCnt sh shB a1 a2 (ix1 b)) 0#32))
      (Ideal.div
        (Host.reduceAdd (rankTerms sh shB pos a0 a1 a2) (constant (F := Ideal) S_ .f32 0x00000000#32) shB.r_full_4096 sh.h_S_
          (ix1 b))
        ((((IntOp.maxsi (negCnt sh shB a1 a2 (ix1 b)) 1#32).toInt : ℤ) : ℝ) : EReal))
      (Ideal.ofBits .f32 0x00000000#32) = _
  rw [reduceAdd_row, RowAlgebra.zero_real]
  simp only [rankTerms_apply]

/-- The second middle's rejection loss at row `b`. -/
theorem rjB_apply (sh : Sh) (shB : ShB) (a0 : FVec Ideal S4096x8192 .f32) (a2 : IVec S4096x8192 1)
    (sok : IVec S4096 1) (b : Fin 4096) :
    rjB sh shB a0 a2 sok (ix1 b)
      = Scalar.select (sok (ix1 b))
          (Ideal.div
            (0 + ∑ k : Fin 8192, max (-(a0 (ix2 b k))) 0 * ((((a2 (ix2 b k)).toNat : ℕ) : ℝ) : EReal))
            ((((IntOp.maxsi (validCnt sh shB a2 (ix1 b)) 1#32).toInt : ℤ) : ℝ) : EReal))
          0 := by
  show Scalar.select (sok (ix1 b))
      (Ideal.div
        (Host.reduceAdd
          (fun i : S4096x8192.Idx => max (-(a0 i)) (Ideal.ofBits .f32 0x00000000#32) * ((((a2 i).toNat : ℕ) : ℝ) : EReal))
          (constant (F := Ideal) S_ .f32 0x00000000#32) shB.r_full_4096 sh.h_S_ (ix1 b))
        ((((IntOp.maxsi (validCnt sh shB a2 (ix1 b)) 1#32).toInt : ℤ) : ℝ) : EReal))
      (Ideal.ofBits .f32 0x00000000#32) = _
  rw [reduceAdd_row, RowAlgebra.zero_real]

/-- The sample mask at row `b`: in range, and the ground-truth column valid. -/
theorem sampleOk_apply (sh : Sh) (d : GatherDims S4096x8192 S4096x1x1 S4096x1) (a1 : IVec S4096 32)
    (a2 : IVec S4096x8192 1) (b : Fin 4096) :
    sampleOk sh d a1 a2 (ix1 b) = IntOp.andi (inRange sh a1 (ix1 b)) (gtValid sh d a1 a2 (ix1 b)) := rfl

end Cert.Rows
-- ==== Proof.LibGatherRows.lean ====
/-
  A row-wise gather read at an index.

  The operand is a table of `N` rows and `C` columns; the start indices are one word per row, laid out as an
  `N × 1 × 1` array; the result is an `N × 1` column. Row `b` of the result reads row `b` of the table (the row axis
  is a batching axis on both sides) at the column its word names: the word read as a SIGNED integer and clamped into
  `[0, C − 1]`. This is what `take_along_axis(table, idx[:, None], axis=1)` lowers to.
  When the word is already a column's position (below `C`, with `C` at most half the word range so that the signed
  reading is the unsigned one) the entry read is the one at the word itself.
  Nothing here depends on the sizes.
-/
import Idealize.ShloMosaic.PureOps.Ideal
import Idealize.ShloMosaic.PureOps.ShapeOps
import Idealize.ShloMosaic.PureOps.Contract
import Idealize.ShloMosaic.Lib.ValueIdx

noncomputable section

namespace Cert.LibGatherRows

open Idealize.ShloMosaic Idealize.ShloMosaic.ValueIdx

variable {α : Type} {N C w : Nat}

/-- The row-wise gather at `(b, u)`, whatever the word: row `b` of the table at the column the word of row `b`
    names, read signed and clamped. -/
theorem gather_rows_clamp (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1) (hC : 0 < C) :
    Host.gather d x idx (ix2 b u)
      = x (ix2 b ⟨min (idx (ix3 b u (0 : Fin 1))).toInt.toNat (C - 1), by omega⟩) := by
  have hsl : d.sliceSizes 1 = 1 := d.slice_collapsed 1 (by rw [hcoll]; exact List.mem_singleton.mpr rfl)
  unfold Host.gather
  refine congrArg x ?_
  cases d with
  | mk od cd ob sb sm iv ss wf =>
    obtain rfl : od = [] := hoff
    obtain rfl : cd = [1] := hcoll
    obtain rfl : ob = [0] := hob
    obtain rfl : sb = [0] := hsb
    obtain rfl : sm = [1] := hsim
    obtain rfl : iv = 2 := hivd
    replace hsl : ss 1 = 1 := hsl
    funext a
    match a with
    | ⟨0, _⟩ =>
      apply Fin.ext
      show GatherDims.start _ (ix2 b u) idx 0 + GatherDims.batchCoord _ (ix2 b u) 0 + GatherDims.offCoord _ (ix2 b u) 0
        = b.val
      rw [GatherDims.offCoord_eq_zero _ _ _ (by decide : (0 : Fin 2) ∉ (List.finRange 2).filter (· ∉ [1] ++ [0]))]
      unfold GatherDims.start
      rw [dif_neg (by decide : (0 : Fin 2) ∉ [1]), Nat.zero_add, Nat.add_zero]
      unfold GatherDims.batchCoord
      rw [dif_pos (List.mem_singleton.mpr rfl)]
      rfl
    | ⟨1, _⟩ =>
      apply Fin.ext
      show GatherDims.start _ (ix2 b u) idx 1 + GatherDims.batchCoord _ (ix2 b u) 1 + GatherDims.offCoord _ (ix2 b u) 1
        = min (idx (ix3 b u (0 : Fin 1))).toInt.toNat (C - 1)
      rw [GatherDims.batchCoord_eq_zero _ _ _ (by decide : (1 : Fin 2) ∉ [0]),
        GatherDims.offCoord_eq_zero _ _ _ (by decide : (1 : Fin 2) ∉ (List.finRange 2).filter (· ∉ [1] ++ [0]))]
      simp only [Nat.add_zero]
      unfold GatherDims.start
      rw [dif_pos (List.mem_singleton.mpr rfl)]
      show min (idx _).toInt.toNat (C - ss 1) = _
      rw [hsl]
      refine congrArg (fun k => min (idx k).toInt.toNat (C - 1)) ?_
      funext e
      match e with
      | ⟨0, _⟩ => exact Fin.ext rfl
      | ⟨1, _⟩ => exact Fin.ext rfl
      | ⟨2, _⟩ => exact Fin.ext rfl

/-- The row-wise gather at `(b, u)` when the word of row `b` is a column's position: the table at `(b, word)`. -/
theorem gather_rows (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1)
    (hC : 2 * C ≤ 2 ^ w) (h : (idx (ix3 b u (0 : Fin 1))).toNat < C) :
    Host.gather d x idx (ix2 b u) = x (ix2 b ⟨(idx (ix3 b u (0 : Fin 1))).toNat, h⟩) := by
  have hC0 : 0 < C := by omega
  rw [gather_rows_clamp d hoff hcoll hob hsb hsim hivd x idx b u hC0]
  refine congrArg x (congrArg (fun r => ix2 b r) (Fin.ext ?_))
  show min (idx (ix3 b u (0 : Fin 1))).toInt.toNat (C - 1) = (idx (ix3 b u (0 : Fin 1))).toNat
  rw [BitVec.toInt_eq_toNat_of_lt (by omega), Int.toNat_natCast]
  omega

end Cert.LibGatherRows

end
-- ==== Proof.Decode.lean ====
/-
  The host functions of the shared head, and the two counts of the second middle, read at an index.

  Row b's clipped index is its word clamped into [0, 8191]; the column it names is the row's ground-truth column.
  The take's start index is that clipped index (the wrap of negative indices never fires), its bounds mask holds in
  every row, so the row-wise take of a table reads (b, ground-truth column of b). A column is a negative of row b
  exactly when it is valid and is not the ground-truth column, and the two word counts are the numbers of such columns.
-/
import proofs.«400832_j962072674814_3_alg».proof.Proof.HostSpec
import proofs.«400832_j962072674814_3_alg».proof.Proof.Words
import proofs.«400832_j962072674814_3_alg».proof.Proof.LibGatherRows
import Idealize.ShloMosaic.Lib.StableHlo.Predicate
import Idealize.ShloMosaic.Lib.Pipeline.Value
import Idealize.ShloMosaic.Lib.ValueIdx

noncomputable section

namespace Cert.Decode

open Idealize.ShloMosaic Idealize.ShloMosaic.ValueIdx
open Cert.HostSpec

variable (sh : Sh) (shB : ShB)

/-- The clipped index of row b is the row's word clamped into [0, 8191]. -/
theorem clipIdx_apply (a1 : IVec S4096 32) (b : Fin 4096) :
    clipIdx sh a1 (ix1 b) = IntOp.minsi 8191#32 (IntOp.maxsi 0#32 (a1 (ix1 b))) := rfl

/-- The ground-truth column of row b: the value of its clipped index, a position below 8192. -/
def gcol (a1 : IVec S4096 32) (b : Fin 4096) : Fin 8192 :=
  ⟨(clipIdx sh a1 (ix1 b)).toNat, by rw [clipIdx_apply]; exact Words.clip_lt _⟩

/-- The clipped index laid out as a column reads, in row b, the clipped index of row b. -/
theorem clipCol_apply (a1 : IVec S4096 32) (b : Fin 4096) (u : Fin 1) :
    clipCol sh a1 (ix2 b u) = clipIdx sh a1 (ix1 b) := by
  unfold clipCol
  refine broadcastInDim_apply _ _ _ (ix2 b u) (ix1 b) fun a => ?_
  match a with
  | ⟨0, _⟩ =>
    show b.val = if (4096 : Nat) = 1 then 0 else b.val
    rw [if_neg (by decide)]

/-- The start index of row b is its clipped index: a clipped index is never negative, so the wrap leaves it alone. -/
theorem takeIdx_apply (a1 : IVec S4096 32) (b : Fin 4096) (u : Fin 1) :
    takeIdx sh a1 (ix3 b u (0 : Fin 1)) = clipIdx sh a1 (ix1 b) := by
  unfold HostSpec.takeIdx
  refine (shapeCast_apply _ _ (ix3 b u (0 : Fin 1)) (ix2 b u) ?_).trans ?_
  · rw [Shape.rowMajor_val_two, Shape.rowMajor_val_three]
    show b.val * 1 + u.val = (b.val * 1 + u.val) * 1 + 0
    omega
  · show Scalar.select (IntOp.cmpi .slt (clipCol sh a1 (ix2 b u)) 0#32)
        (IntOp.addi (clipCol sh a1 (ix2 b u)) 8192#32) (clipCol sh a1 (ix2 b u)) = _
    rw [clipCol_apply]
    exact Words.wrap_id _ (by rw [clipIdx_apply]; exact Words.clip_lt _)

/-- The bounds mask of the take holds in every row: the start index is a clipped index, within [0, 8191]. -/
theorem takeInb_apply (a1 : IVec S4096 32) (b : Fin 4096) (u : Fin 1) : takeInb sh a1 (ix2 b u) = 1#1 := by
  unfold takeInb
  rw [Words.reduce_andi_unit]
  show IntOp.andi 1#1 (IntOp.andi (IntOp.cmpi .sge (takeIdx sh a1 (ix3 b u (0 : Fin 1))) 0#32)
    (IntOp.cmpi .sle (takeIdx sh a1 (ix3 b u (0 : Fin 1))) 8191#32)) = 1#1
  rw [takeIdx_apply, Words.inb_one _ (by rw [clipIdx_apply]; exact Words.clip_lt _)]
  rfl

variable (d : GatherDims S4096x8192 S4096x1x1 S4096x1)
  (hoff : d.offsetDims = []) (hcoll : d.collapsedSliceDims = [1]) (hob : d.operandBatchingDims = [0])
  (hsb : d.startIndicesBatchingDims = [0]) (hsim : d.startIndexMap = [1]) (hivd : d.indexVectorDim = 2)

include hoff hcoll hob hsb hsim hivd

/-- The row-wise take reads, in row b, the table at (b, the ground-truth column of b). -/
theorem takeRows_apply {α : Type} (x : S4096x8192.Idx → α) (fill : S4096x1.Idx → α) (a1 : IVec S4096 32)
    (b : Fin 4096) (u : Fin 1) : takeRows sh d x fill a1 (ix2 b u) = x (ix2 b (gcol sh a1 b)) := by
  have hlt : (takeIdx sh a1 (ix3 b u (0 : Fin 1))).toNat < 8192 := by
    rw [takeIdx_apply, clipIdx_apply]; exact Words.clip_lt _
  unfold takeRows
  rw [select_apply, takeInb_apply, select_one,
    LibGatherRows.gather_rows d hoff hcoll hob hsb hsim hivd x (takeIdx sh a1) b u (by norm_num) hlt]
  refine congrArg x (congrArg (fun r => ix2 b r) (Fin.ext ?_))
  show (takeIdx sh a1 (ix3 b u (0 : Fin 1))).toNat = (clipIdx sh a1 (ix1 b)).toNat
  rw [takeIdx_apply]

/-- The validity bit at the ground-truth column, read in row b. -/
theorem gtValid_apply (a1 : IVec S4096 32) (a2 : IVec S4096x8192 1) (b : Fin 4096) :
    gtValid sh d a1 a2 (ix1 b) = a2 (ix2 b (gcol sh a1 b)) := by
  unfold gtValid
  refine (shapeCast_apply _ _ (ix1 b) (ix2 b (0 : Fin 1)) ?_).trans ?_
  · rw [Shape.rowMajor_val_two, Shape.rowMajor_val_one]
    show b.val * 1 + 0 = b.val
    omega
  · exact takeRows_apply sh d hoff hcoll hob hsb hsim hivd a2 _ a1 b 0

/-- The score at the ground-truth column, read in row b. -/
theorem posCol_apply (a0 : FVec Ideal S4096x8192 .f32) (a1 : IVec S4096 32) (b : Fin 4096) (u : Fin 1) :
    posCol sh d a0 a1 (ix2 b u) = a0 (ix2 b (gcol sh a1 b)) := by
  unfold posCol
  exact takeRows_apply sh d hoff hcoll hob hsb hsim hivd a0 _ a1 b u

omit hoff hcoll hob hsb hsim hivd

/-- Column k of row b is a negative exactly when it is valid and is not the ground-truth column. -/
theorem negMask_eq_one_iff (a1 : IVec S4096 32) (a2 : IVec S4096x8192 1) (b : Fin 4096) (k : Fin 8192) :
    negMask sh shB a1 a2 (ix2 b k) = 1#1 ↔ a2 (ix2 b k) = 1#1 ∧ k ≠ gcol sh a1 b := by
  -- the position array reads k at (b, k)
  have hpos : broadcastInDim S4096x8192 ![0, 1] shB.b_row_full
      (broadcastInDim S1x8192 ![1] shB.b_8192_row (iotaInDim S8192 32 0)) (ix2 b k) = BitVec.ofNat 32 k.val := by
    refine (broadcastInDim_apply _ _ _ (ix2 b k) (ix2 (0 : Fin 1) k) fun a => ?_).trans ?_
    · match a with
      | ⟨0, _⟩ => rfl
      | ⟨1, _⟩ =>
        show k.val = if (8192 : Nat) = 1 then 0 else k.val
        rw [if_neg (by decide)]
    · refine (broadcastInDim_apply _ _ _ (ix2 (0 : Fin 1) k) (ix1 k) fun a => ?_).trans rfl
      match a with
      | ⟨0, _⟩ =>
        show k.val = if (8192 : Nat) = 1 then 0 else k.val
        rw [if_neg (by decide)]
  -- the index array reads row b's clipped index at (b, k)
  have hidx : broadcastInDim S4096x8192 ![0, 1] shB.b_col_full
      (broadcastInDim S4096x1 ![0] sh.b_4096_col (clipIdx sh a1)) (ix2 b k) = clipIdx sh a1 (ix1 b) := by
    refine (broadcastInDim_apply _ _ _ (ix2 b k) (ix2 b (0 : Fin 1)) fun a => ?_).trans (clipCol_apply sh a1 b 0)
    match a with
    | ⟨0, _⟩ =>
      show b.val = if (4096 : Nat) = 1 then 0 else b.val
      rw [if_neg (by decide)]
    | ⟨1, _⟩ => rfl
  show IntOp.andi (a2 (ix2 b k)) (IntOp.cmpi .ne
      (broadcastInDim S4096x8192 ![0, 1] shB.b_row_full
        (broadcastInDim S1x8192 ![1] shB.b_8192_row (iotaInDim S8192 32 0)) (ix2 b k))
      (broadcastInDim S4096x8192 ![0, 1] shB.b_col_full
        (broadcastInDim S4096x1 ![0] sh.b_4096_col (clipIdx sh a1)) (ix2 b k))) = 1#1 ↔ _
  rw [hpos, hidx, Words.andi_eq_one_iff,
    Words.ne_iota_iff k _ (by rw [clipIdx_apply]; exact Words.clip_lt _)]
  refine and_congr_right fun _ => not_congr ?_
  exact ⟨fun e => Fin.ext e, fun e => congrArg Fin.val e⟩

/-- The two ways of writing the index (p, q) of a rectangle agree. -/
theorem ij_eq_ix2 {n m : Nat} (p : Fin n) (q : Fin m) : StableHlo.Predicate.ij p q = ix2 p q := by
  funext a
  match a with
  | ⟨0, _⟩ => rfl
  | ⟨1, _⟩ => rfl

/-- The negative count of row b is the number of valid columns other than the ground-truth one. -/
theorem negCnt_toNat (a1 : IVec S4096 32) (a2 : IVec S4096x8192 1) (b : Fin 4096) :
    (negCnt sh shB a1 a2 (ix1 b)).toNat
      = (Finset.univ.filter fun k : Fin 8192 => a2 (ix2 b k) = 1#1 ∧ k ≠ gcol sh a1 b).card := by
  unfold negCnt
  rw [StableHlo.Predicate.toNat_reduce_count_cols (by norm_num)]
  refine congrArg Finset.card (Finset.filter_congr fun k _ => ?_)
  rw [ij_eq_ix2]
  exact negMask_eq_one_iff sh shB a1 a2 b k

/-- The valid count of row b is the number of valid columns. -/
theorem validCnt_toNat (a2 : IVec S4096x8192 1) (b : Fin 4096) :
    (validCnt sh shB a2 (ix1 b)).toNat = (Finset.univ.filter fun k : Fin 8192 => a2 (ix2 b k) = 1#1).card := by
  unfold validCnt
  rw [StableHlo.Predicate.toNat_reduce_count_cols (by norm_num)]
  refine congrArg Finset.card (Finset.filter_congr fun k _ => ?_)
  rw [ij_eq_ix2]

end Cert.Decode

end
-- ==== Proof.Bridge.lean ====
import proofs.«400832_j962072674814_3_alg».proof.Proof.HostSpec
import proofs.«400832_j962072674814_3_alg».proof.Proof.Words
import proofs.«400832_j962072674814_3_alg».proof.Proof.RowAlgebra
import proofs.«400832_j962072674814_3_alg».proof.Proof.Rows
import proofs.«400832_j962072674814_3_alg».proof.Proof.Decode

noncomputable section

namespace Cert.Bridge

open Idealize.ShloMosaic Idealize.ShloMosaic.ValueIdx
open Cert.HostSpec

/-! ## One row, in scalars

The two middles at one row, with the scores real, the validity a decidable predicate on the columns, `g` the
ground-truth column and `NC` the word that counts the columns summed over. -/

/-- Two bits are equal when each is set exactly when the other is. -/
theorem bit_ext {x y : BitVec 1} (h : x = 1#1 ↔ y = 1#1) : x = y := by
  rcases BitVec.eq_zero_or_eq_one x with hx | hx <;> rcases BitVec.eq_zero_or_eq_one y with hy | hy
  · rw [hx, hy]
  · exact absurd (h.2 hy) (by rw [hx]; decide)
  · exact absurd (h.1 hx) (by rw [hy]; decide)
  · rw [hx, hy]

/-- A set of columns has at most 8192 members. -/
theorem card_le (p : Fin 8192 → Prop) [DecidablePred p] : (Finset.univ.filter p).card ≤ 8192 :=
  (Finset.card_le_univ _).trans (le_of_eq (Fintype.card_fin 8192))

/-- The ranking loss of one row. On the left the sums run over all valid columns and the ground-truth column's own
    term `M` and count `1` are taken off when it is valid; on the right they run over the valid columns other than
    `g`, `NC` of them. The numerators agree by `rank_split`, the counts by `count_split`; a count raised to one as a
    signed word is the real maximum with one; and "the count is positive" is the same bit read from the real count and
    from the word. -/
theorem row_rl (s : Fin 8192 → ℝ) (v : Fin 8192 → Prop) [DecidablePred v] (g : Fin 8192) (M : ℝ) (hM : 0 ≤ M)
    (sok : BitVec 1) (NC : BitVec 32) (hNC : NC.toNat = (Finset.univ.filter fun k => v k ∧ k ≠ g).card) :
    Scalar.select
        (IntOp.andi sok
          (Ideal.cmp .ogt ((∑ k, (if v k then (1 : EReal) else 0) * (1 : EReal)) - (if v g then 1 else 0)) 0))
        (Ideal.div
          ((∑ k, (if v k then max ((M : EReal) - ((s g : EReal) - (s k : EReal))) 0 else 0) * (1 : EReal))
            - (M : EReal) * (if v g then 1 else 0))
          (max ((∑ k, (if v k then (1 : EReal) else 0) * (1 : EReal)) - (if v g then 1 else 0)) 1))
        (0 : EReal)
      = Scalar.select
        (IntOp.andi sok (IntOp.cmpi .sgt NC 0#32))
        (Ideal.div
          (0 + ∑ k, max ((M : EReal) - ((s g : EReal) - (s k : EReal))) 0
            * (if v k ∧ k ≠ g then (1 : EReal) else 0))
          ((((IntOp.maxsi NC 1#32).toInt : ℤ) : ℝ) : EReal))
        0 := by
  have hle : NC.toNat ≤ 8192 := by rw [hNC]; exact card_le _
  have hbit : Ideal.cmp .ogt ((((Finset.univ.filter fun k => v k ∧ k ≠ g).card : ℕ) : ℝ) : EReal) 0
      = IntOp.cmpi .sgt NC 0#32 := by
    apply bit_ext
    rw [RowAlgebra.cmp_ogt_nat, Words.sgt_zero_iff NC hle, hNC]
  rw [RowAlgebra.rank_split s v g M hM, RowAlgebra.count_split v g, Words.sitofp_maxsi_one NC hle, hNC, hbit]

/-- The rejection loss of one row: the sums agree by `rej_eq`, the counts by `count_eq`. -/
theorem row_rj (s : Fin 8192 → ℝ) (v : Fin 8192 → Prop) [DecidablePred v] (sok : BitVec 1) (NC : BitVec 32)
    (hNC : NC.toNat = (Finset.univ.filter fun k => v k).card) :
    Scalar.select sok
        (Ideal.div
          (∑ k, (if v k then max ((0 : EReal) - (s k : EReal)) 0 else 0) * (1 : EReal))
          (max (∑ k, (if v k then (1 : EReal) else 0) * (1 : EReal)) 1))
        (0 : EReal)
      = Scalar.select sok
        (Ideal.div
          (0 + ∑ k, max (-(s k : EReal)) 0 * (if v k then (1 : EReal) else 0))
          ((((IntOp.maxsi NC 1#32).toInt : ℤ) : ℝ) : EReal))
        0 := by
  have hle : NC.toNat ≤ 8192 := by rw [hNC]; exact card_le _
  rw [RowAlgebra.rej_eq s v, RowAlgebra.count_eq v, Words.sitofp_maxsi_one NC hle, hNC]

/-! ## The arrays -/

variable (sh : Sh) (shB : ShB)

/-- The sample mask does not depend on which gather record reads the ground-truth column: both read the validity bit at
    the clipped ground-truth index. -/
theorem sampleOk_eq (a1 : IVec S4096 32) (a2 : IVec S4096x8192 1)
    (d : GatherDims S4096x8192 S4096x1x1 S4096x1)
    (hoff : d.offsetDims = []) (hcoll : d.collapsedSliceDims = [1]) (hob : d.operandBatchingDims = [0])
    (hsb : d.startIndicesBatchingDims = [0]) (hsim : d.startIndexMap = [1]) (hivd : d.indexVectorDim = 2)
    (d' : GatherDims S4096x8192 S4096x1x1 S4096x1)
    (hoff' : d'.offsetDims = []) (hcoll' : d'.collapsedSliceDims = [1]) (hob' : d'.operandBatchingDims = [0])
    (hsb' : d'.startIndicesBatchingDims = [0]) (hsim' : d'.startIndexMap = [1]) (hivd' : d'.indexVectorDim = 2) :
    sampleOk sh d a1 a2 = sampleOk sh d' a1 a2 := by
  funext i
  obtain ⟨b, rfl⟩ : ∃ b : Fin 4096, i = ix1 b := ⟨i 0, eq_ix1 i⟩
  rw [Rows.sampleOk_apply, Rows.sampleOk_apply, Decode.gtValid_apply sh d hoff hcoll hob hsb hsim hivd,
    Decode.gtValid_apply sh d' hoff' hcoll' hob' hsb' hsim' hivd']

/-- The two ranking losses agree, row by row: each side read at row `b` is one side of `row_rl`, with the scores of
    the row as reals, the row's validity bits, the clipped ground-truth column and the real the margin's pattern
    denotes. -/
theorem rl_eq (a0 : FVec Ideal S4096x8192 .f32) (hfin : ∀ i, ∃ r : ℝ, a0 i = (r : EReal))
    (a1 : IVec S4096 32) (a2 : IVec S4096x8192 1)
    (d : GatherDims S4096x8192 S4096x1x1 S4096x1)
    (hoff : d.offsetDims = []) (hcoll : d.collapsedSliceDims = [1]) (hob : d.operandBatchingDims = [0])
    (hsb : d.startIndicesBatchingDims = [0]) (hsim : d.startIndexMap = [1]) (hivd : d.indexVectorDim = 2)
    (d' : GatherDims S4096x8192 S4096x1x1 S4096x1)
    (hoff' : d'.offsetDims = []) (hcoll' : d'.collapsedSliceDims = [1]) (hob' : d'.operandBatchingDims = [0])
    (hsb' : d'.startIndicesBatchingDims = [0]) (hsim' : d'.startIndexMap = [1]) (hivd' : d'.indexVectorDim = 2)
    (h1 : S_.BroadcastsInDim S8192x1 (![] : Fin 0 → Fin S8192x1.rank)) (hlt : 1 < 32) :
    rlA sh (rowRank a0 (extui 32 a2 hlt) (posCol sh d a0 a1) (Rows.ones h1)) (rowCnt (extui 32 a2 hlt) (Rows.ones h1))
        (gtValid sh d a1 a2) (sampleOk sh d a1 a2)
      = rlB sh shB (posCol sh d' a0 a1) a0 a1 a2 (sampleOk sh d' a1 a2) := by
  rw [← sampleOk_eq sh a1 a2 d hoff hcoll hob hsb hsim hivd d' hoff' hcoll' hob' hsb' hsim' hivd']
  funext i
  obtain ⟨b, rfl⟩ : ∃ b : Fin 4096, i = ix1 b := ⟨i 0, eq_ix1 i⟩
  choose s hs using fun k : Fin 8192 => hfin (ix2 b k)
  obtain ⟨M, hM, hMg⟩ := RowAlgebra.margin_real
  have hmask : ∀ k : Fin 8192, ((((negMask sh shB a1 a2 (ix2 b k)).toNat : ℕ) : ℝ) : EReal)
      = if (a2 (ix2 b k) = 1#1 ∧ k ≠ Decode.gcol sh a1 b) then (1 : EReal) else 0 := by
    intro k
    rw [Words.uitofp_bit]
    exact if_congr (Decode.negMask_eq_one_iff sh shB a1 a2 b k) rfl rfl
  rw [Rows.rlA_apply, Rows.rlB_apply, Rows.rowRank_apply, Rows.rowCnt_apply,
    Decode.gtValid_apply sh d hoff hcoll hob hsb hsim hivd,
    Decode.posCol_apply sh d hoff hcoll hob hsb hsim hivd,
    Decode.posCol_apply sh d' hoff' hcoll' hob' hsb' hsim' hivd',
    Words.uitofp_bit]
  simp only [hmask, hs, hMg]
  exact row_rl s (fun k => a2 (ix2 b k) = 1#1) (Decode.gcol sh a1 b) M hM _ _ (Decode.negCnt_toNat sh shB a1 a2 b)

/-- The two rejection losses agree, row by row, by `row_rj`. -/
theorem rj_eq (a0 : FVec Ideal S4096x8192 .f32) (hfin : ∀ i, ∃ r : ℝ, a0 i = (r : EReal))
    (a1 : IVec S4096 32) (a2 : IVec S4096x8192 1)
    (d : GatherDims S4096x8192 S4096x1x1 S4096x1)
    (hoff : d.offsetDims = []) (hcoll : d.collapsedSliceDims = [1]) (hob : d.operandBatchingDims = [0])
    (hsb : d.startIndicesBatchingDims = [0]) (hsim : d.startIndexMap = [1]) (hivd : d.indexVectorDim = 2)
    (d' : GatherDims S4096x8192 S4096x1x1 S4096x1)
    (hoff' : d'.offsetDims = []) (hcoll' : d'.collapsedSliceDims = [1]) (hob' : d'.operandBatchingDims = [0])
    (hsb' : d'.startIndicesBatchingDims = [0]) (hsim' : d'.startIndexMap = [1]) (hivd' : d'.indexVectorDim = 2)
    (h1 : S_.BroadcastsInDim S8192x1 (![] : Fin 0 → Fin S8192x1.rank)) (hlt : 1 < 32) :
    rjA sh (rowRej a0 (extui 32 a2 hlt) (Rows.ones h1)) (rowCnt (extui 32 a2 hlt) (Rows.ones h1)) (sampleOk sh d a1 a2)
      = rjB sh shB a0 a2 (sampleOk sh d' a1 a2) := by
  rw [← sampleOk_eq sh a1 a2 d hoff hcoll hob hsb hsim hivd d' hoff' hcoll' hob' hsb' hsim' hivd']
  funext i
  obtain ⟨b, rfl⟩ : ∃ b : Fin 4096, i = ix1 b := ⟨i 0, eq_ix1 i⟩
  choose s hs using fun k : Fin 8192 => hfin (ix2 b k)
  rw [Rows.rjA_apply, Rows.rjB_apply, Rows.rowRej_apply, Rows.rowCnt_apply]
  simp only [Words.uitofp_bit, hs]
  exact row_rj s (fun k => a2 (ix2 b k) = 1#1) _ _ (Decode.validCnt_toNat sh shB a2 b)

end Cert.Bridge
-- ==== Proof.Finite.lean ====
/-
  From the precondition to finiteness of the scores.

  The precondition is the conjunction, over every entry of the score array, of |x| < +∞. When it holds, every
  entry has |x| < +∞, so the entry is neither +∞ nor the junk value −∞: it is a real number.
-/
import proofs.«400832_j962072674814_3_alg».proof.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Finite

open Idealize.ShloMosaic

variable [Cert.Pre_finite_inputs.Facts]

/-- Under the precondition every score is a real number. -/
theorem finite_of_pre (a0 : FVec Ideal Cert.Pre_finite_inputs.S4096x8192 .f32) (a1 : IVec Cert.Pre_finite_inputs.S4096 32)
    (a2 : IVec Cert.Pre_finite_inputs.S4096x8192 1)
    (h : Cert.Pre_finite_inputs.fn (F := Ideal) a0 a1 a2 = fun _ => 1#1) (i : Cert.Pre_finite_inputs.S4096x8192.Idx) :
    ∃ r : ℝ, a0 i = (r : EReal) := by
  haveI : Subsingleton Cert.Pre_finite_inputs.S_.Idx := ⟨fun a b => funext fun d => d.elim0⟩
  have h0 := congrFun h ValueIdx.ix0
  dsimp only [Cert.Pre_finite_inputs.fn] at h0
  -- the conjunction over all entries is 1, so the entry at i is 1
  have hi := Host.reduce_andi_all _ _ _ _ _ h0 i
  -- that entry is the test |a0 i| < +∞
  have hi' : Ideal.cmp .olt (max (a0 i) (-(a0 i))) (Ideal.ofBits .f32 0x7F800000#32) = 1#1 := hi
  have htop : Ideal.ofBits .f32 0x7F800000#32 = (⊤ : EReal) := by simp [Ideal.ofBits, Ideal.ieee]
  rw [htop] at hi'
  have hlt : max (a0 i) (-(a0 i)) < (⊤ : EReal) := by
    simp only [Ideal.cmp] at hi'
    by_contra hn
    rw [decide_eq_false hn] at hi'
    exact absurd hi' (by decide)
  obtain ⟨h1, h2⟩ := max_lt_iff.1 hlt
  have hne_top : a0 i ≠ ⊤ := ne_of_lt h1
  have hne_bot : a0 i ≠ ⊥ := by
    intro e
    rw [e, EReal.neg_bot] at h2
    exact lt_irrefl _ h2
  exact ⟨(a0 i).toReal, (EReal.coe_toReal hne_top hne_bot).symm⟩

end Cert.Finite

end
-- ==== Proof.lean ====
/-
  The certificate of the ranking / rejection loss kernel against its jnp reference.

  Both programs compute, per sample, a ranking loss (the mean over the valid columns other than the ground-truth one
  of max (margin − (pos − score), 0), pos the score at the ground-truth column) and a rejection loss (the mean over the
  valid columns of max (−score, 0)), mask them by the contributing samples, and return the two means over those samples
  and their weighted sum. They differ in how a row's sums are taken: the kernel's region sums the ranking term over ALL
  valid columns (three contractions of [128, 8192] blocks with a column of ones), and the host subtracts the
  ground-truth column's own term afterwards — there pos − score = 0, so the term is exactly the margin, which is not
  negative — and its count; the reference masks that column out before summing and counts in integers. On finite scores
  the two agree row by row (Bridge), the heads and tails of the two programs are the same host functions (HostSpec), so
  the three results agree.
  The frames: the kernel's and its idealization's are the generated frame runs; the reference's is its run (the generated
  run, in a patched copy) with the results dropped. The ideal pass rewrote nothing, so the idealization claim is trivial.
-/
import proofs.«400832_j962072674814_3_alg».proof.Defs
import proofs.«400832_j962072674814_3_alg».proof.Proof.Gen.Kernel
import proofs.«400832_j962072674814_3_alg».proof.Proof.Gen.Kernel.Skeleton
import proofs.«400832_j962072674814_3_alg».proof.Proof.Gen.Kernel.Launch
import proofs.«400832_j962072674814_3_alg».proof.Proof.Gen.Kernel.Points
import proofs.«400832_j962072674814_3_alg».proof.Proof.Gen.Kernel.Frame
import proofs.«400832_j962072674814_3_alg».proof.Proof.Gen.KernelIdeal
import proofs.«400832_j962072674814_3_alg».proof.Proof.Gen.KernelIdeal.Skeleton
import proofs.«400832_j962072674814_3_alg».proof.Proof.Gen.KernelIdeal.Launch
import proofs.«400832_j962072674814_3_alg».proof.Proof.Gen.KernelIdeal.Points
import proofs.«400832_j962072674814_3_alg».proof.Proof.Gen.KernelIdeal.Frame
import proofs.«400832_j962072674814_3_alg».proof.Proof.Gen.ReferenceIdeal
import proofs.«400832_j962072674814_3_alg».proof.Proof.RefRunGen
import proofs.«400832_j962072674814_3_alg».proof.Proof.Gen.Pre_finite_inputs
import proofs.«400832_j962072674814_3_alg».proof.Proof.HostSpec
import proofs.«400832_j962072674814_3_alg».proof.Proof.KernelRun
import proofs.«400832_j962072674814_3_alg».proof.Proof.RefRun
import proofs.«400832_j962072674814_3_alg».proof.Proof.Bridge
import proofs.«400832_j962072674814_3_alg».proof.Proof.Finite
import Idealize.ShloMosaic.Adequacy
import Idealize.ShloMosaic.Init

noncomputable section

namespace Cert.Proof

open Idealize.ShloMosaic Idealize.SL.Sem
open Cert.HostSpec
open Cert.KernelIdeal.Host (shK dK onesK)
open Cert.ReferenceIdeal.HostRun (shR shBR dR)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- On finite scores the reference's sample mask and per-sample losses (at argument arrays `a0' a1' a2'`) are the
    kernel's (at equal arrays `a0 a1 a2`): the row-by-row bridge, at the two programs' own gather records. -/
theorem losses_eq (a0 a0' : FVec Ideal S4096x8192 .f32) (e0 : a0' = a0) (a1 a1' : IVec S4096 32) (e1 : a1' = a1)
    (a2 a2' : IVec S4096x8192 1) (e2 : a2' = a2) (hfin : ∀ i, ∃ r : ℝ, a0 i = (r : EReal)) :
    sampleOk shR dR a1' a2' = sampleOk shK dK a1 a2
    ∧ rlB shR shBR (posCol shR dR a0' a1') a0' a1' a2' (sampleOk shR dR a1' a2')
        = rlA shK (rowRank a0 (extui 32 a2 Cert.KernelIdeal.Facts₀.natLt_1_32) (posCol shK dK a0 a1) onesK)
            (rowCnt (extui 32 a2 Cert.KernelIdeal.Facts₀.natLt_1_32) onesK) (gtValid shK dK a1 a2) (sampleOk shK dK a1 a2)
    ∧ rjB shR shBR a0' a2' (sampleOk shR dR a1' a2')
        = rjA shK (rowRej a0 (extui 32 a2 Cert.KernelIdeal.Facts₀.natLt_1_32) onesK)
            (rowCnt (extui 32 a2 Cert.KernelIdeal.Facts₀.natLt_1_32) onesK) (sampleOk shK dK a1 a2) := by
  subst e0 e1 e2
  refine ⟨?_, ?_, ?_⟩
  · exact (Cert.Bridge.sampleOk_eq shK a1' a2' dK rfl rfl rfl rfl rfl rfl dR rfl rfl rfl rfl rfl rfl).symm
  · exact (Cert.Bridge.rl_eq shK shBR a0' hfin a1' a2' dK rfl rfl rfl rfl rfl rfl dR rfl rfl rfl rfl rfl rfl
      Cert.KernelIdeal.Facts₀.bcast_S_S8192x1 Cert.KernelIdeal.Facts₀.natLt_1_32).symm
  · exact (Cert.Bridge.rj_eq shK shBR a0' hfin a1' a2' dK rfl rfl rfl rfl rfl rfl dR rfl rfl rfl rfl rfl rfl
      Cert.KernelIdeal.Facts₀.bcast_S_S8192x1 Cert.KernelIdeal.Facts₀.natLt_1_32).symm

/-- The shared tail at equal losses and masks, whichever program's shape witnesses it is written with. -/
theorem meanOver_congr {l l' : FVec Ideal S4096 .f32} {s s' : IVec S4096 1} (hl : l = l') (hs : s = s') :
    meanOver shR l s = meanOver shK l' s' := by
  subst hl hs; rfl

theorem total_congr {l l' j j' : FVec Ideal S4096 .f32} {s s' : IVec S4096 1} (hl : l = l') (hj : j = j') (hs : s = s') :
    total shR l j s = total shK l' j' s' := by
  subst hl hj hs; rfl

/-- From memories agreeing on the arguments, with finite scores, both programs end with the same three results. -/
theorem algebraic : Cert.algebraic_KernelIdeal_ReferenceIdeal := by
  intro m ρ m' ρ' hpre hagree
  refine ⟨fun c => total shK (Cert.KernelIdeal.Host.rlK m c) (Cert.KernelIdeal.Host.rjK m c) (Cert.KernelIdeal.Host.sokK m c),
    fun c => meanOver shK (Cert.KernelIdeal.Host.rlK m c) (Cert.KernelIdeal.Host.sokK m c),
    fun c => meanOver shK (Cert.KernelIdeal.Host.rjK m c) (Cert.KernelIdeal.Host.sokK m c),
    Cert.KernelIdeal.Host.run_value m ρ, ?_⟩
  refine (θ_run Cert.ReferenceIdeal.defs _ _).mono (fun _ h c => ?_) (Cert.ReferenceIdeal.Value.run (F := Ideal) m' ρ')
  obtain ⟨h58, h54, h56, hargs⟩ := h c
  have hfin : ∀ i, ∃ r : ℝ, Cert.KernelIdeal.Host.arg0 m c i = (r : EReal) := fun i =>
    Cert.Finite.finite_of_pre _ _ _ (hpre c) i
  obtain ⟨es, el, ej⟩ := losses_eq (Cert.KernelIdeal.Host.arg0 m c) (Cert.ReferenceIdeal.HostRun.arg0 m' c) (hagree c).1
    (Cert.KernelIdeal.Host.arg1 m c) (Cert.ReferenceIdeal.HostRun.arg1 m' c) (hagree c).2.1
    (Cert.KernelIdeal.Host.arg2 m c) (Cert.ReferenceIdeal.HostRun.arg2 m' c) (hagree c).2.2 hfin
  refine ⟨h58.trans ((Cert.ReferenceIdeal.HostRun.res58_eq m' c).trans ?_),
    h54.trans ((Cert.ReferenceIdeal.HostRun.res54_eq m' c).trans ?_),
    h56.trans ((Cert.ReferenceIdeal.HostRun.res56_eq m' c).trans ?_), hargs⟩
  · exact total_congr el ej es
  · exact meanOver_congr el es
  · exact meanOver_congr ej es

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
